-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x1 : Shape := ⟨3, ![1, 8192, 1]⟩
abbrev S_ : Shape := ⟨0, ![]⟩

class Facts : Prop where
  bcast_S_S1x8192x1 : S_.BroadcastsInDim S1x8192x1 (![] : Fin 0 → Fin S1x8192x1.rank)
  reducesTo_S1x8192x1_S_d0_1_2 : S1x8192x1.ReducesTo [0, 1, 2] S_
  h_S_ : 0 < S_.numel

variable [Facts]

def fn {F : FTy → Type} [FloatOps F] (main_arg0 : FVec F S1x8192x1 .f32) (main_arg1 : FVec F S1x8192x1 .f32) (main_arg2 : FVec F S1x8192x1 .f32) : IVec S_ 1 :=
  let main_v0 : FVec F S1x8192x1 .f32 := Host.absf main_arg0
  let main_cst : FVec F S_ .f32 := constant S_ .f32 0x7F800000#32
  let main_v1 : FVec F S1x8192x1 .f32 := broadcastInDim S1x8192x1 ![] bcast_S_S1x8192x1 main_cst
  let main_v2 : IVec S1x8192x1 1 := cmpf .olt main_v0 main_v1
  let main_c : IVec S_ 1 := constantI S_ 1 1#1
  let main_v3 : IVec S_ 1 := (fun x v => Host.reduce IntOp.andi x v reducesTo_S1x8192x1_S_d0_1_2 h_S_) main_v2 main_c
  let main_v4 : FVec F S1x8192x1 .f32 := Host.absf main_arg1
  let main_cst_0 : FVec F S_ .f32 := constant S_ .f32 0x7F800000#32
  let main_v5 : FVec F S1x8192x1 .f32 := broadcastInDim S1x8192x1 ![] bcast_S_S1x8192x1 main_cst_0
  let main_v6 : IVec S1x8192x1 1 := cmpf .olt main_v4 main_v5
  let main_c_1 : IVec S_ 1 := constantI S_ 1 1#1
  let main_v7 : IVec S_ 1 := (fun x v => Host.reduce IntOp.andi x v reducesTo_S1x8192x1_S_d0_1_2 h_S_) main_v6 main_c_1
  let main_v8 : IVec S_ 1 := andi main_v3 main_v7
  let main_v9 : FVec F S1x8192x1 .f32 := Host.absf main_arg2
  let main_cst_2 : FVec F S_ .f32 := constant S_ .f32 0x7F800000#32
  let main_v10 : FVec F S1x8192x1 .f32 := broadcastInDim S1x8192x1 ![] bcast_S_S1x8192x1 main_cst_2
  let main_v11 : IVec S1x8192x1 1 := cmpf .olt main_v9 main_v10
  let main_c_3 : IVec S_ 1 := constantI S_ 1 1#1
  let main_v12 : IVec S_ 1 := (fun x v => Host.reduce IntOp.andi x v reducesTo_S1x8192x1_S_d0_1_2 h_S_) main_v11 main_c_3
  let main_v13 : IVec S_ 1 := andi main_v8 main_v12
  main_v13
-- ==== Kernel.lean ====
abbrev S1x8192x1 : Shape := ⟨3, ![1, 8192, 1]⟩
abbrev S64x128 : Shape := ⟨2, ![64, 128]⟩

abbrev nBuf : Space → Nat
  | .hbm => 10
  | .vmem => 5
  | .smem => 0
  | _ => 0

abbrev bufTy : (tb : Table) → Fin (tcTables nBuf tb) → BufTy
  | .hbm, ⟨0, _⟩ => ⟨S1x8192x1, .f32⟩
  | .hbm, ⟨1, _⟩ => ⟨S1x8192x1, .f32⟩
  | .hbm, ⟨2, _⟩ => ⟨S1x8192x1, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S1x8192x1, .f32⟩
  | .hbm, ⟨9, _⟩ => ⟨S1x8192x1, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | _, _ => ⟨S1x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  shapeCasts_S1x8192x1_S64x128 : S1x8192x1.ShapeCasts S64x128
  shapeCasts_S64x128_S1x8192x1 : S64x128.ShapeCasts S1x8192x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  natLt_1_32 : 1 < 32
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev win0_0 : Pipeline.Window sig grid0 :=
  Pipeline.Window.whole (Memref.whole main_call0_v0) false false (stage0_0 0) (sem0_0 0) (Memref.isWhole_whole _) (hstage0_0 0)

abbrev win0_1 : Pipeline.Window sig grid0 :=
  Pipeline.Window.whole (Memref.whole main_call0_v1) false false (stage0_1 0) (sem0_1 0) (Memref.isWhole_whole _) (hstage0_1 0)

abbrev win0_2 : Pipeline.Window sig grid0 :=
  Pipeline.Window.whole (Memref.whole main_call0_v2) false false (stage0_2 0) (sem0_2 0) (Memref.isWhole_whole _) (hstage0_2 0)

abbrev win0_3 : Pipeline.Window sig grid0 :=
  Pipeline.Window.whole (Memref.whole main_call0_v3_0) true false (stage0_3 0) (sem0_3 0) (Memref.isWhole_whole _) (hstage0_3 0)

abbrev win0_4 : Pipeline.Window sig grid0 :=
  Pipeline.Window.whole (Memref.whole main_call0_v3_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x8192x1 : Shape := ⟨3, ![1, 8192, 1]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192x8192 : Shape := ⟨3, ![1, 8192, 8192]⟩

abbrev nBuf : Space → Nat
  | .hbm => 110
  | .vmem => 0
  | .smem => 0
  | _ => 0

abbrev bufTy : (tb : Table) → Fin (tcTables nBuf tb) → BufTy
  | .hbm, ⟨0, _⟩ => ⟨S1x8192x1, .f32⟩
  | .hbm, ⟨1, _⟩ => ⟨S1x8192x1, .f32⟩
  | .hbm, ⟨2, _⟩ => ⟨S1x8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x8192x1, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .i1⟩
  | .hbm, ⟨18, _⟩ => ⟨S_, .f32⟩
  | .hbm, ⟨19, _⟩ => ⟨S1x8192x1, .f32⟩
  | .hbm, ⟨20, _⟩ => ⟨S1x8192x1, .i1⟩
  | .hbm, ⟨21, _⟩ => ⟨S1x8192x1, .i1⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .i1⟩
  | .hbm, ⟨26, _⟩ => ⟨S_, .f32⟩
  | .hbm, ⟨27, _⟩ => ⟨S1x8192x1, .f32⟩
  | .hbm, ⟨28, _⟩ => ⟨S1x8192x1, .i1⟩
  | .hbm, ⟨29, _⟩ => ⟨S1x8192x1, .i1⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .i1⟩
  | .hbm, ⟨34, _⟩ => ⟨S_, .f32⟩
  | .hbm, ⟨35, _⟩ => ⟨S1x8192x1, .f32⟩
  | .hbm, ⟨36, _⟩ => ⟨S1x8192x1, .i1⟩
  | .hbm, ⟨37, _⟩ => ⟨S1x8192x1, .i1⟩
  | .hbm, ⟨38, _⟩ => ⟨S1x8192x1, .f32⟩
  | .hbm, ⟨39, _⟩ => ⟨S1x8192x1, .f32⟩
  | .hbm, ⟨40, _⟩ => ⟨S1x8192x1, .f32⟩
  | .hbm, ⟨41, _⟩ => ⟨S1x8192x1, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S1x8192x1, .f32⟩
  | .hbm, ⟨47, _⟩ => ⟨S1x8192x1, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192x8192, .i32⟩
  | .hbm, ⟨52, _⟩ => ⟨S8192x8192, .i32⟩
  | .hbm, ⟨53, _⟩ => ⟨S_, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S8192x1, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S1x8192x8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192x8192, .i32⟩
  | .hbm, ⟨67, _⟩ => ⟨S8192x8192, .i32⟩
  | .hbm, ⟨68, _⟩ => ⟨S_, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S8192x1, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S1x8192x8192, .f32⟩
  | .hbm, ⟨78, _⟩ => ⟨S_, .f32⟩
  | .hbm, ⟨79, _⟩ => ⟨S1x8192x8192, .f32⟩
  | .hbm, ⟨80, _⟩ => ⟨S1x8192x8192, .f32⟩
  | .hbm, ⟨81, _⟩ => ⟨S8192x8192, .f32⟩
  | .hbm, ⟨82, _⟩ => ⟨S8192x1, .f32⟩
  | .hbm, ⟨83, _⟩ => ⟨S8192x1, .f32⟩
  | .hbm, ⟨84, _⟩ => ⟨S1x8192x1, .f32⟩
  | .hbm, ⟨85, _⟩ => ⟨S_, .f32⟩
  | .hbm, ⟨86, _⟩ => ⟨S1x8192x8192, .f32⟩
  | .hbm, ⟨87, _⟩ => ⟨S1x8192x8192, .f32⟩
  | .hbm, ⟨88, _⟩ => ⟨S8192x8192, .f32⟩
  | .hbm, ⟨89, _⟩ => ⟨S8192x1, .f32⟩
  | .hbm, ⟨90, _⟩ => ⟨S8192x1, .f32⟩
  | .hbm, ⟨91, _⟩ => ⟨S1x8192x1, .f32⟩
  | .hbm, ⟨92, _⟩ => ⟨S1x8192x1, .f32⟩
  | .hbm, ⟨93, _⟩ => ⟨S1x8192x1, .f32⟩
  | .hbm, ⟨94, _⟩ => ⟨S_, .f32⟩
  | .hbm, ⟨95, _⟩ => ⟨S1x8192x8192, .f32⟩
  | .hbm, ⟨96, _⟩ => ⟨S1x8192x8192, .f32⟩
  | .hbm, ⟨97, _⟩ => ⟨S8192x8192, .f32⟩
  | .hbm, ⟨98, _⟩ => ⟨S8192x1, .f32⟩
  | .hbm, ⟨99, _⟩ => ⟨S8192x1, .f32⟩
  | .hbm, ⟨100, _⟩ => ⟨S1x8192x1, .f32⟩
  | .hbm, ⟨101, _⟩ => ⟨S_, .f32⟩
  | .hbm, ⟨102, _⟩ => ⟨S1x8192x8192, .f32⟩
  | .hbm, ⟨103, _⟩ => ⟨S1x8192x8192, .f32⟩
  | .hbm, ⟨104, _⟩ => ⟨S8192x8192, .f32⟩
  | .hbm, ⟨105, _⟩ => ⟨S8192x1, .f32⟩
  | .hbm, ⟨106, _⟩ => ⟨S8192x1, .f32⟩
  | .hbm, ⟨107, _⟩ => ⟨S1x8192x1, .f32⟩
  | .hbm, ⟨108, _⟩ => ⟨S1x8192x1, .f32⟩
  | .hbm, ⟨109, _⟩ => ⟨S1x8192x1, .f32⟩
  | _, _ => ⟨S1x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_c : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_0 : Ref sig .tc := ⟨.hbm, 58, rfl⟩
abbrev main_call1_call0_v0 : Ref sig .tc := ⟨.hbm, 59, rfl⟩
abbrev main_call1_call0_v1 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_c : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_cst_0 : Ref sig .tc := ⟨.hbm, 73, rfl⟩
abbrev main_call2_call0_v0 : Ref sig .tc := ⟨.hbm, 74, rfl⟩
abbrev main_call2_call0_v1 : Ref sig .tc := ⟨.hbm, 75, rfl⟩
abbrev main_v35 : Ref sig .tc := ⟨.hbm, 76, rfl⟩
abbrev main_v36 : Ref sig .tc := ⟨.hbm, 77, rfl⟩
abbrev main_cst_8 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_9 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_11 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩

abbrev nD : Nat := 1
abbrev τ : Topo := Topo.v7x

variable {F : FTy → Type} [FloatOps F]

class Facts₀ : Prop where
  bcast_S_S1x8192x1 : S_.BroadcastsInDim S1x8192x1 (![] : Fin 0 → Fin S1x8192x1.rank)
  shapeCasts_S1x8192x1_S8192 : S1x8192x1.ShapeCasts S8192
  pads_S8192_S8192_000 : S8192.Pads (![0] : Fin 1 → Nat) ![0] ![0] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192x8192_S1x8192x8192_1_2 : S8192x8192.BroadcastsInDim S1x8192x8192 (![1, 2] : Fin 2 → Fin S1x8192x8192.rank)
  bcast_S_S1x8192x8192 : S_.BroadcastsInDim S1x8192x8192 (![] : Fin 0 → Fin S1x8192x8192.rank)
  shapeCasts_S1x8192x8192_S8192x8192 : S1x8192x8192.ShapeCasts S8192x8192
  shapeCasts_S1x8192x1_S8192x1 : S1x8192x1.ShapeCasts S8192x1
  bcast_S8192x1_S1x8192x1_1_2 : S8192x1.BroadcastsInDim S1x8192x1 (![1, 2] : Fin 2 → Fin S1x8192x1.rank)
  dot_S8192x8192_S8192x1_S8192x1_1_0_0_1_n_n_wf : DotDims.WF S8192x8192 S8192x1 S8192x1 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.ReluScalar.lean ====
/-
  The per-element mathematics of the ReLU bound-propagation step.

  For one neuron with pre-activation bounds `l ≤ x ≤ u` and a learnt lower slope `a`, the step computes

    clip a        = min 1 (max 0 a)
    slope l u     = u / (u - l)
    pos, cross, strict ∈ {0, 1}: the indicators of `0 ≤ l ∧ 0 ≤ u`, `l < 0 ∧ 0 ≤ u`, `l < 0 ∧ 0 < u`
    wLower        = pos + cross · clip a            wUpper = pos + cross · slope
    bias          = strict · ((0 - slope) · l)
    lower         = max wLower 0 · l + min wLower 0 · u
    upper         = (max wUpper 0 · u + min wUpper 0 · l) + bias

  written here once, for any float family, with the operations in exactly this order and grouping.
  Both programs are compared against these two functions, element by element.
-/
import Idealize.ShloMosaic.PureOps
import Idealize.ShloMosaic.PureOps.Ideal
import Idealize.ShloMosaic.PureOps.Ideal.Laws
import Idealize.ShloMosaic.Lib.IdealHost

noncomputable section

namespace Cert.ReluBound

open Idealize.ShloMosaic

variable {F : FTy → Type} [FloatOps F]

/-- The float word of zero. -/
def zeroW : F .f32 := FloatOps.ofBits .f32 0x00000000#32
/-- The float word of one. -/
def oneW : F .f32 := FloatOps.ofBits .f32 0x3F800000#32

/-- A one-bit truth value as a float: widened to 32 bits and read as a signed integer. -/
def indK (b : BitVec 1) : F .f32 := FloatOps.sitofp .f32 (b.setWidth 32)

/-- The slope `a` clipped to the unit interval. -/
def clipK (a : F .f32) : F .f32 := FloatOps.minimumf oneW (FloatOps.maximumf zeroW a)

/-- The upper relaxation's slope `u / (u - l)`. -/
def slopeK (l u : F .f32) : F .f32 := FloatOps.divf u (FloatOps.subf u l)

/-- Indicator of a neuron that is active on the whole box: `0 ≤ l` and `0 ≤ u`. -/
def posK (l u : F .f32) : F .f32 :=
  indK (IntOp.andi (FloatOps.cmpf .oge l zeroW) (FloatOps.cmpf .oge u zeroW))

/-- Indicator of a neuron whose box crosses zero: `l < 0` and `0 ≤ u`. -/
def crossK (l u : F .f32) : F .f32 :=
  indK (IntOp.andi (FloatOps.cmpf .olt l zeroW) (FloatOps.cmpf .oge u zeroW))

/-- Indicator of a strict crossing: `l < 0` and `0 < u`. -/
def strictK (l u : F .f32) : F .f32 :=
  indK (IntOp.andi (FloatOps.cmpf .olt l zeroW) (FloatOps.cmpf .ogt u zeroW))

/-- The diagonal weight of the lower relaxation. -/
def wLowerK (l u a : F .f32) : F .f32 :=
  FloatOps.addf (posK l u) (FloatOps.mulf (crossK l u) (clipK a))

/-- The diagonal weight of the upper relaxation. -/
def wUpperK (l u : F .f32) : F .f32 :=
  FloatOps.addf (posK l u) (FloatOps.mulf (crossK l u) (slopeK l u))

/-- The upper relaxation's offset `strict · (-slope · l)`, the negation spelt `0 - slope`. -/
def biasK (l u : F .f32) : F .f32 :=
  FloatOps.mulf (strictK l u) (FloatOps.mulf (FloatOps.subf zeroW (slopeK l u)) l)

/-- The new lower bound: the weight's positive part times `l` plus its negative part times `u`. -/
def lowerK (l u a : F .f32) : F .f32 :=
  FloatOps.addf (FloatOps.mulf (FloatOps.maximumf (wLowerK l u a) zeroW) l)
    (FloatOps.mulf (FloatOps.minimumf (wLowerK l u a) zeroW) u)

/-- The new upper bound: the weight's positive part times `u` plus its negative part times `l`, plus the offset. -/
def upperK (l u : F .f32) : F .f32 :=
  FloatOps.addf
    (FloatOps.addf (FloatOps.mulf (FloatOps.maximumf (wUpperK l u) zeroW) u)
      (FloatOps.mulf (FloatOps.minimumf (wUpperK l u) zeroW) l))
    (biasK l u)

end Cert.ReluBound

end
-- ==== Proof.KernelArrays.lean ====
/-
  The idealized kernel's run, read as arrays.

  The program reshapes its three arguments l, u, a from [1, 8192, 1] to [64, 128], runs one region whose
  two result arrays are, element by element, the new lower bound `lowerK l u a` and the new upper bound
  `upperK l u`, and reshapes both results back to [1, 8192, 1].  A reshape there and back is the identity
  and an element-wise function commutes with a reshape, so the two result arrays of the whole program are
  `lowerK` and `upperK` of the argument arrays, index by index; the arguments are left as they were.
-/
import proofs.«129557_j89446988907158_1_alg».proof.Proof.ReluScalar
import proofs.«129557_j89446988907158_1_alg».proof.Proof.Gen.KernelIdeal.Frame
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.Pipeline (Dat)
open Cert.ReluBound

variable {F : FTy → Type} [FloatOps F]
variable (m : (ℓ : Loc nD τ sig) → Buf (Elt F) ℓ) (ρ : Dev nD → PrngReg)

/-! ## The body's arithmetic, element by element -/

/-- The offsets of the one rectangle the body loads and stores through are all zero. -/
theorem origin_zero : (![0, 0] : Fin 2 → Nat) = fun _ => 0 := funext fun a => by fin_cases a <;> rfl

/-- What the body stores to the first result block: `lowerK` of the three loaded blocks, element by element. -/
theorem lower_payload (x0 x1 x2 : Vec F S64x128 .f32) :
    k0_pay1 (k0_pay4 x1) (k0_pay8 x0 x1 x2) (k0_pay11 x0 x1 x2) = fun i => lowerK (x0 i) (x1 i) (x2 i) := by
  unfold k0_pay1 k0_pay11 k0_pay8 k0_pay7 k0_pay6 k0_pay4 k0_pay3
  simp only [shapeCast_self]
  rfl

/-- What the body stores to the second result block: `upperK` of the first two loaded blocks, element by element. -/
theorem upper_payload (x0 x1 : Vec F S64x128 .f32) :
    k0_pay2 (k0_pay3 x0) (k0_pay4 x1) (k0_pay9 x0 x1) (k0_pay10 x0 x1) = fun i => upperK (x0 i) (x1 i) := by
  unfold k0_pay2 k0_pay10 k0_pay9 k0_pay7 k0_pay6 k0_pay5 k0_pay4 k0_pay3
  simp only [shapeCast_self]
  rfl

/-! ## The arrays the region finds -/

/-- The region's first input array is the argument `l` reshaped. -/
theorem entry_l (c : Dev nD) :
    (V m c main_call0_v0 : S64x128.Idx → F .f32)
      = shapeCast S64x128 (m ((c.tc : Thread nD τ).loc main_arg0)) shapeCasts_S1x8192x1_S64x128 := by
  show StableHlo.after hostOps0 (fun b => m (c, b)) (Proc.devRef .tc main_call0_v0) = _
  after_results
  rfl

/-- The region's second input array is the argument `u` reshaped. -/
theorem entry_u (c : Dev nD) :
    (V m c main_call0_v1 : S64x128.Idx → F .f32)
      = shapeCast S64x128 (m ((c.tc : Thread nD τ).loc main_arg1)) shapeCasts_S1x8192x1_S64x128 := by
  show StableHlo.after hostOps0 (fun b => m (c, b)) (Proc.devRef .tc main_call0_v1) = _
  after_results
  rfl

/-- The region's third input array is the argument `a` reshaped. -/
theorem entry_a (c : Dev nD) :
    (V m c main_call0_v2 : S64x128.Idx → F .f32)
      = shapeCast S64x128 (m ((c.tc : Thread nD τ).loc main_arg2)) shapeCasts_S1x8192x1_S64x128 := by
  show StableHlo.after hostOps0 (fun b => m (c, b)) (Proc.devRef .tc main_call0_v2) = _
  after_results
  rfl

/-! ## The result arrays when the region ends -/

/-- `lowerK` of three arrays of one shape, index by index. -/
abbrev lowerArr {s : Shape} (l u a : s.Idx → F .f32) : s.Idx → F .f32 := fun i => lowerK (l i) (u i) (a i)
/-- `upperK` of two arrays of one shape, index by index. -/
abbrev upperArr {s : Shape} (l u : s.Idx → F .f32) : s.Idx → F .f32 := fun i => upperK (l i) (u i)

/-- The region has one point, and at it every window's block is the block at index zero on both axes. -/
theorem block_at_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The three input windows and the first output window read their arrays at the same index. -/
theorem same_index_lower (t : Fin cfg0.N) (j : S64x128.Idx) :
    ((cfg0.win 0).blk t).view.emb j = ((cfg0.win 3).blk t).view.emb j
    ∧ ((cfg0.win 1).blk t).view.emb j = ((cfg0.win 3).blk t).view.emb j
    ∧ ((cfg0.win 2).blk t).view.emb j = ((cfg0.win 3).blk t).view.emb j := by
  obtain ⟨a0, a1, b0, b1, c0, c1, d0, d1, -, -⟩ := block_at_zero t
  refine ⟨?_, ?_, ?_⟩
  · funext a; apply Fin.ext
    match a with
    | ⟨0, _⟩ => show win0_0.index t (0 : Fin 2) * 64 + 1 * (j 0).val = win0_3.index t (0 : Fin 2) * 64 + 1 * (j 0).val; omega
    | ⟨1, _⟩ => show win0_0.index t (1 : Fin 2) * 128 + 1 * (j 1).val = win0_3.index t (1 : Fin 2) * 128 + 1 * (j 1).val; omega
  · funext a; apply Fin.ext
    match a with
    | ⟨0, _⟩ => show win0_1.index t (0 : Fin 2) * 64 + 1 * (j 0).val = win0_3.index t (0 : Fin 2) * 64 + 1 * (j 0).val; omega
    | ⟨1, _⟩ => show win0_1.index t (1 : Fin 2) * 128 + 1 * (j 1).val = win0_3.index t (1 : Fin 2) * 128 + 1 * (j 1).val; omega
  · funext a; apply Fin.ext
    match a with
    | ⟨0, _⟩ => show win0_2.index t (0 : Fin 2) * 64 + 1 * (j 0).val = win0_3.index t (0 : Fin 2) * 64 + 1 * (j 0).val; omega
    | ⟨1, _⟩ => show win0_2.index t (1 : Fin 2) * 128 + 1 * (j 1).val = win0_3.index t (1 : Fin 2) * 128 + 1 * (j 1).val; omega

/-- The first two input windows and the second output window read their arrays at the same index. -/
theorem same_index_upper (t : Fin cfg0.N) (j : S64x128.Idx) :
    ((cfg0.win 0).blk t).view.emb j = ((cfg0.win 4).blk t).view.emb j
    ∧ ((cfg0.win 1).blk t).view.emb j = ((cfg0.win 4).blk t).view.emb j := by
  obtain ⟨a0, a1, b0, b1, -, -, -, -, e0, e1⟩ := block_at_zero t
  refine ⟨?_, ?_⟩
  · funext a; apply Fin.ext
    match a with
    | ⟨0, _⟩ => show win0_0.index t (0 : Fin 2) * 64 + 1 * (j 0).val = win0_4.index t (0 : Fin 2) * 64 + 1 * (j 0).val; omega
    | ⟨1, _⟩ => show win0_0.index t (1 : Fin 2) * 128 + 1 * (j 1).val = win0_4.index t (1 : Fin 2) * 128 + 1 * (j 1).val; omega
  · funext a; apply Fin.ext
    match a with
    | ⟨0, _⟩ => show win0_1.index t (0 : Fin 2) * 64 + 1 * (j 0).val = win0_4.index t (0 : Fin 2) * 64 + 1 * (j 0).val; omega
    | ⟨1, _⟩ => show win0_1.index t (1 : Fin 2) * 128 + 1 * (j 1).val = win0_4.index t (1 : Fin 2) * 128 + 1 * (j 1).val; omega

/-- What the region's one point writes back to the first result array is that point's block of `lowerK` of the
    arrays the region finds. -/
theorem flushed_lower (c : Dev nD) (t : Fin cfg0.N) :
    (dats m 0 c).flushed 3 t = ((cfg0.win 3).blk t).view.read (Elt F)
      (lowerArr (V m c main_call0_v0) (V m c main_call0_v1) (V m c main_call0_v2)) := by
  show (cfg0.win 3).cut (grid0.coords t) ((dats m 0 c).after 3 t) = _
  rw [after0_3]
  unfold out0_3
  rw [View.canon_unit_zero origin_zero]
  simp only [View.ld_unit_zero (S := S64x128) origin_zero]
  rw [lower_payload]
  funext j
  obtain ⟨h0, h1, h2⟩ := same_index_lower t j
  show lowerK (V m c main_call0_v0 (((cfg0.win 0).blk t).view.emb j)) (V m c main_call0_v1 (((cfg0.win 1).blk t).view.emb j)) (V m c main_call0_v2 (((cfg0.win 2).blk t).view.emb j))
    = lowerK (V m c main_call0_v0 (((cfg0.win 3).blk t).view.emb j)) (V m c main_call0_v1 (((cfg0.win 3).blk t).view.emb j)) (V m c main_call0_v2 (((cfg0.win 3).blk t).view.emb j))
  rw [h0, h1, h2]

/-- What it writes back to the second result array is that point's block of `upperK` of the arrays the region finds. -/
theorem flushed_upper (c : Dev nD) (t : Fin cfg0.N) :
    (dats m 0 c).flushed 4 t = ((cfg0.win 4).blk t).view.read (Elt F)
      (upperArr (V m c main_call0_v0) (V m c main_call0_v1)) := by
  show (cfg0.win 4).cut (grid0.coords t) ((dats m 0 c).after 4 t) = _
  rw [after0_4]
  unfold out0_4
  rw [View.canon_unit_zero origin_zero]
  simp only [View.ld_unit_zero (S := S64x128) origin_zero]
  rw [upper_payload]
  funext j
  obtain ⟨h0, h1⟩ := same_index_upper t j
  show upperK (V m c main_call0_v0 (((cfg0.win 0).blk t).view.emb j)) (V m c main_call0_v1 (((cfg0.win 1).blk t).view.emb j))
    = upperK (V m c main_call0_v0 (((cfg0.win 4).blk t).view.emb j)) (V m c main_call0_v1 (((cfg0.win 4).blk t).view.emb j))
  rw [h0, h1]

/-- An index of the first result array is in the point's block iff each coordinate is in the block's range. -/
theorem mem_block_lower (t : Fin cfg0.N) (i : S64x128.Idx) :
    i ∈ ((cfg0.win 3).blk t).view.set ↔ ∀ a : Fin 2, win0_3.index t a * S64x128.size a ≤ (i a).val ∧ (i a).val < win0_3.index t a * S64x128.size a + S64x128.size a := by
  show i ∈ ((View.whole main_call0_v3_0).slice (win0_3.rect t)).set ↔ _
  rw [View.set_slice_whole, Rect.mem_set_unit]
  exact Iff.rfl

/-- The same for the second result array. -/
theorem mem_block_upper (t : Fin cfg0.N) (i : S64x128.Idx) :
    i ∈ ((cfg0.win 4).blk t).view.set ↔ ∀ a : Fin 2, win0_4.index t a * S64x128.size a ≤ (i a).val ∧ (i a).val < win0_4.index t a * S64x128.size a + S64x128.size a := by
  show i ∈ ((View.whole main_call0_v3_1).slice (win0_4.rect t)).set ↔ _
  rw [View.set_slice_whole, Rect.mem_set_unit]
  exact Iff.rfl

/-- The one block is the whole of the first result array. -/
theorem covered_lower (i : S64x128.Idx) :
    ∃ t : Fin cfg0.N, (cfg0.win 3).flush t = true ∧ i ∈ ((cfg0.win 3).blk t).view.set := by
  refine ⟨t0_0, flush0_3 t0_0, ?_⟩
  rw [mem_block_lower]
  obtain ⟨-, -, -, -, -, -, d0, d1, -, -⟩ := block_at_zero t0_0
  have hi0 : (i 0).val < 64 := (i 0).isLt
  have hi1 : (i 1).val < 128 := (i 1).isLt
  intro a
  match a with
  | ⟨0, _⟩ => show win0_3.index t0_0 (0 : Fin 2) * 64 ≤ (i 0).val ∧ (i 0).val < win0_3.index t0_0 (0 : Fin 2) * 64 + 64; omega
  | ⟨1, _⟩ => show win0_3.index t0_0 (1 : Fin 2) * 128 ≤ (i 1).val ∧ (i 1).val < win0_3.index t0_0 (1 : Fin 2) * 128 + 128; omega

/-- The one block is the whole of the second result array. -/
theorem covered_upper (i : S64x128.Idx) :
    ∃ t : Fin cfg0.N, (cfg0.win 4).flush t = true ∧ i ∈ ((cfg0.win 4).blk t).view.set := by
  refine ⟨t0_0, flush0_4 t0_0, ?_⟩
  rw [mem_block_upper]
  obtain ⟨-, -, -, -, -, -, -, -, e0, e1⟩ := block_at_zero t0_0
  have hi0 : (i 0).val < 64 := (i 0).isLt
  have hi1 : (i 1).val < 128 := (i 1).isLt
  intro a
  match a with
  | ⟨0, _⟩ => show win0_4.index t0_0 (0 : Fin 2) * 64 ≤ (i 0).val ∧ (i 0).val < win0_4.index t0_0 (0 : Fin 2) * 64 + 64; omega
  | ⟨1, _⟩ => show win0_4.index t0_0 (1 : Fin 2) * 128 ≤ (i 1).val ∧ (i 1).val < win0_4.index t0_0 (1 : Fin 2) * 128 + 128; omega

/-- The first result array when the region ends: `lowerK` of the arrays the region finds. -/
theorem final_lower (c : Dev nD) :
    (dats m 0 c).arrAt 3 cfg0.N = lowerArr (V m c main_call0_v0) (V m c main_call0_v1) (V m c main_call0_v2) :=
  (dats m 0 c).arrAt_eq_of_cover 3 _ (fun t _ => flushed_lower m c t) (fun i => covered_lower i)

/-- The second result array when the region ends: `upperK` of the arrays the region finds. -/
theorem final_upper (c : Dev nD) :
    (dats m 0 c).arrAt 4 cfg0.N = upperArr (V m c main_call0_v0) (V m c main_call0_v1) :=
  (dats m 0 c).arrAt_eq_of_cover 4 _ (fun t _ => flushed_upper m c t) (fun i => covered_upper i)

/-! ## The reshapes after the region -/

/-- The program's first result is the region's first result array reshaped. -/
theorem tail_lower (c : Dev nD) :
    Pipeline.afterTail₀ cfgs (dats m) 0 (V0 m) [hostOps1] c main_v0_0
      = shapeCast S1x8192x1 (lowerArr (V m c main_call0_v0) (V m c main_call0_v1) (V m c main_call0_v2))
          shapeCasts_S64x128_S1x8192x1 := by
  unfold Pipeline.afterTail₀
  show StableHlo.after hostOps1 _ (Proc.devRef .tc main_v0_0) = _
  after_results
  exact congrArg (fun A : S64x128.Idx → F .f32 => shapeCast S1x8192x1 A shapeCasts_S64x128_S1x8192x1)
    ((Pipeline.withArrays_arr spec0 launch0.win.arr_inj c _ _ 3).trans (final_lower m c))

/-- The program's second result is the region's second result array reshaped. -/
theorem tail_upper (c : Dev nD) :
    Pipeline.afterTail₀ cfgs (dats m) 0 (V0 m) [hostOps1] c main_v0_1
      = shapeCast S1x8192x1 (upperArr (V m c main_call0_v0) (V m c main_call0_v1))
          shapeCasts_S64x128_S1x8192x1 := by
  unfold Pipeline.afterTail₀
  show StableHlo.after hostOps1 _ (Proc.devRef .tc main_v0_1) = _
  after_results
  exact congrArg (fun A : S64x128.Idx → F .f32 => shapeCast S1x8192x1 A shapeCasts_S64x128_S1x8192x1)
    ((Pipeline.withArrays_arr spec0 launch0.win.arr_inj c _ _ 4).trans (final_upper m c))

/-! ## There and back: the results as functions of the arguments -/

/-- An argument reshaped to the region's shape and back is the argument. -/
theorem there_and_back (v : S1x8192x1.Idx → F .f32) :
    shapeCast S1x8192x1 (shapeCast S64x128 v shapeCasts_S1x8192x1_S64x128) shapeCasts_S64x128_S1x8192x1 = v :=
  shapeCast_shapeCast v shapeCasts_S1x8192x1_S64x128 shapeCasts_S64x128_S1x8192x1

/-- The program's first result: `lowerK` of the three arguments, index by index. -/
theorem result_lower (c : Dev nD) :
    Pipeline.afterTail₀ cfgs (dats m) 0 (V0 m) [hostOps1] c main_v0_0
      = lowerArr (m ((c.tc : Thread nD τ).loc main_arg0)) (m ((c.tc : Thread nD τ).loc main_arg1))
          (m ((c.tc : Thread nD τ).loc main_arg2)) := by
  refine (tail_lower m c).trans ?_
  rw [entry_l m c, entry_u m c, entry_a m c]
  show lowerArr (shapeCast S1x8192x1 (shapeCast S64x128 (m ((c.tc : Thread nD τ).loc main_arg0)) shapeCasts_S1x8192x1_S64x128) shapeCasts_S64x128_S1x8192x1)
      (shapeCast S1x8192x1 (shapeCast S64x128 (m ((c.tc : Thread nD τ).loc main_arg1)) shapeCasts_S1x8192x1_S64x128) shapeCasts_S64x128_S1x8192x1)
      (shapeCast S1x8192x1 (shapeCast S64x128 (m ((c.tc : Thread nD τ).loc main_arg2)) shapeCasts_S1x8192x1_S64x128) shapeCasts_S64x128_S1x8192x1) = _
  rw [there_and_back, there_and_back, there_and_back]
  rfl

/-- The program's second result: `upperK` of the first two arguments, index by index. -/
theorem result_upper (c : Dev nD) :
    Pipeline.afterTail₀ cfgs (dats m) 0 (V0 m) [hostOps1] c main_v0_1
      = upperArr (m ((c.tc : Thread nD τ).loc main_arg0)) (m ((c.tc : Thread nD τ).loc main_arg1)) := by
  refine (tail_upper m c).trans ?_
  rw [entry_l m c, entry_u m c]
  show upperArr (shapeCast S1x8192x1 (shapeCast S64x128 (m ((c.tc : Thread nD τ).loc main_arg0)) shapeCasts_S1x8192x1_S64x128) shapeCasts_S64x128_S1x8192x1)
      (shapeCast S1x8192x1 (shapeCast S64x128 (m ((c.tc : Thread nD τ).loc main_arg1)) shapeCasts_S1x8192x1_S64x128) shapeCasts_S64x128_S1x8192x1) = _
  rw [there_and_back, there_and_back]
  rfl

/-! ## The run -/

/-- Every run of the program ends with its first result at `lowerK l u a` and its second at `upperK l u`, index by
    index over the argument arrays `l`, `u`, `a`, and with the three arguments as they were. -/
theorem run_named :
    θ_run (defs (F := F)) (onTc (τ := τ) (main (F := F))) ⟨m, fun _ => 0, ρ⟩ fun r => ∀ c : Dev nD,
      r.2.mem ((c.tc : Thread nD τ).loc main_v0_0) = (fun i => Cert.ReluBound.lowerK (m ((c.tc : Thread nD τ).loc main_arg0) i) (m ((c.tc : Thread nD τ).loc main_arg1) i) (m ((c.tc : Thread nD τ).loc main_arg2) i))
      ∧ r.2.mem ((c.tc : Thread nD τ).loc main_v0_1) = (fun i => Cert.ReluBound.upperK (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0_0 (Pipeline.mem_restRefs_of main_v0_0 (by decide) (by decide))).trans (result_lower m c),
     ((h c).2 main_v0_1 (Pipeline.mem_restRefs_of main_v0_1 (by decide) (by decide))).trans (result_upper m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Arrays

end
-- ==== Proof.RefStages.lean ====
/-
  The reference program's computation, stage by stage, as functions of whole arrays.

  The reference forms the same two diagonal weights as the kernel, element by element over f32[1, 8192, 1]
  (the clipped slope through a straight-through difference `a + (clip a - a)`, the indicators by an unsigned
  read of a truth value, the negation as a negation), then spreads each weight vector `w` over the diagonal of an
  8192 × 8192 matrix (`diagV`: entry (i, k) is `w i` where the row number equals the column number and zero
  elsewhere), splits the matrix into its positive and negative parts, and multiplies each part with a bound vector
  (`mvV`: one contraction over the column index). The two results are

    refLower = (max D 0 · l + min D 0 · u) + 0        for D = diagV wLower
    refUpper = (max D 0 · u + min D 0 · l) + bias     for D = diagV wUpper

  Each definition below is one buffer of the program as a function of the three argument arrays, the operations
  in the program's own order.
-/
import proofs.«129557_j89446988907158_1_alg».proof.Proof.Gen.ReferenceIdeal

noncomputable section

namespace Cert.ReferenceIdeal.Stages

open Cert.ReferenceIdeal Cert.ReferenceIdeal.Gen Idealize.ShloMosaic

variable {F : FTy → Type} [FloatOps F]

/-- The zero array over the neurons. -/
def zeroV : FVec F S1x8192x1 .f32 :=
  broadcastInDim S1x8192x1 ![] bcast_S_S1x8192x1 (constant S_ .f32 0x00000000#32)

/-- The slope clipped to the unit interval: `min 1 (max 0 a)`. -/
def clipV (a : FVec F S1x8192x1 .f32) : FVec F S1x8192x1 .f32 :=
  minimumf (broadcastInDim S1x8192x1 ![] bcast_S_S1x8192x1 (constant S_ .f32 0x3F800000#32))
    (maximumf (broadcastInDim S1x8192x1 ![] bcast_S_S1x8192x1 (constant S_ .f32 0x00000000#32)) a)

/-- The clipped slope as the reference spells it: `a + (clip a - a)`. -/
def steV (a : FVec F S1x8192x1 .f32) : FVec F S1x8192x1 .f32 := addf a (subf (clipV a) a)

/-- `u / (u - l)`. -/
def slopeV (l u : FVec F S1x8192x1 .f32) : FVec F S1x8192x1 .f32 := Host.divf u (subf u l)

/-- Indicator of `0 ≤ l ∧ 0 ≤ u`. -/
def posV (l u : FVec F S1x8192x1 .f32) : FVec F S1x8192x1 .f32 :=
  uitofp .f32 (andi (cmpf .oge l zeroV) (cmpf .oge u zeroV))

/-- Indicator of `l < 0 ∧ 0 ≤ u`. -/
def crossV (l u : FVec F S1x8192x1 .f32) : FVec F S1x8192x1 .f32 :=
  uitofp .f32 (andi (cmpf .olt l zeroV) (cmpf .oge u zeroV))

/-- Indicator of `l < 0 ∧ 0 < u`. -/
def strictV (l u : FVec F S1x8192x1 .f32) : FVec F S1x8192x1 .f32 :=
  uitofp .f32 (andi (cmpf .olt l zeroV) (cmpf .ogt u zeroV))

/-- The lower relaxation's weights. -/
def wLowerV (l u a : FVec F S1x8192x1 .f32) : FVec F S1x8192x1 .f32 :=
  addf (posV l u) (mulf (crossV l u) (steV a))

/-- The upper relaxation's weights. -/
def wUpperV (l u : FVec F S1x8192x1 .f32) : FVec F S1x8192x1 .f32 :=
  addf (posV l u) (mulf (crossV l u) (slopeV l u))

/-- The upper relaxation's offsets. -/
def biasV (l u : FVec F S1x8192x1 .f32) : FVec F S1x8192x1 .f32 :=
  mulf (strictV l u) (mulf (Host.negf (slopeV l u)) l)

/-- A weight vector spread over the diagonal of a matrix: the vector flattened, laid down the rows of one column,
    repeated along the columns, and kept only where the row number equals the column number; zero elsewhere. -/
def diagV (w : FVec F S1x8192x1 .f32) : FVec F S1x8192x8192 .f32 :=
  broadcastInDim S1x8192x8192 ![1, 2] bcast_S8192x8192_S1x8192x8192_1_2
    (select
      (cmpi .eq
        (addi (iotaInDim S8192x8192 32 0)
          (broadcastInDim S8192x8192 ![] bcast_S_S8192x8192 (constantI S_ 32 0#32)))
        (iotaInDim S8192x8192 32 1))
      (broadcastInDim S8192x8192 ![0, 1] bcast_S8192x1_S8192x8192_0_1
        (broadcastInDim S8192x1 ![0] bcast_S8192_S8192x1_0
          (pad S8192 ![0] ![0] ![0] (shapeCast S8192 w shapeCasts_S1x8192x1_S8192)
            (constant S_ .f32 0x00000000#32) pads_S8192_S8192_000 h_S_)))
      (broadcastInDim S8192x8192 ![] bcast_S_S8192x8192 (constant S_ .f32 0x00000000#32)))

/-- The zero matrix. -/
def zeroM : FVec F S1x8192x8192 .f32 :=
  broadcastInDim S1x8192x8192 ![] bcast_S_S1x8192x8192 (constant S_ .f32 0x00000000#32)

/-- A matrix times a bound vector: the contraction over the column index, the result laid back over the neurons. -/
def mvV (M : FVec F S1x8192x8192 .f32) (x : FVec F S1x8192x1 .f32) : FVec F S1x8192x1 .f32 :=
  broadcastInDim S1x8192x1 ![1, 2] bcast_S8192x1_S1x8192x1_1_2
    (Host.dotGeneral dot_S8192x8192_S8192x1_S8192x1_1_0_0_1_n_n none
      (shapeCast S8192x8192 M shapeCasts_S1x8192x8192_S8192x8192)
      (shapeCast S8192x1 x shapeCasts_S1x8192x1_S8192x1))

/-- The reference's first result: the new lower bounds. -/
def refLower (l u a : FVec F S1x8192x1 .f32) : FVec F S1x8192x1 .f32 :=
  addf
    (addf (mvV (maximumf (diagV (wLowerV l u a)) zeroM) l) (mvV (minimumf (diagV (wLowerV l u a)) zeroM) u))
    zeroV

/-- The reference's second result: the new upper bounds. -/
def refUpper (l u : FVec F S1x8192x1 .f32) : FVec F S1x8192x1 .f32 :=
  addf
    (addf (mvV (maximumf (diagV (wUpperV l u)) zeroM) u) (mvV (minimumf (diagV (wUpperV l u)) zeroM) l))
    (biasV l u)

end Cert.ReferenceIdeal.Stages

end
-- ==== Proof.RefRun.lean ====
/-
  The reference program's run.

  @main of the reference is a straight line of host operations once its three calls are unfolded: the clip of the
  slope (six operations over its own buffers), and twice the spreading of a weight vector over the diagonal of a
  matrix (ten operations and the three of the selection it calls). The line is listed here in four stretches:

    A  the element-wise prefix: the clipped slope, the three indicators, the two weight vectors, the zero offsets
       of the lower relaxation and the offsets of the upper one;
    B  the two diagonal matrices, each from its flattened weight vector;
    C  the lower relaxation's two products: the positive part of its matrix with the lower bounds, the negative
       part with the upper bounds;
    D  their sum with the zero offsets, and the upper relaxation's two products, their sum and its offsets.

  For each stretch, what every buffer read later holds after it is stated as a function of what the buffers it
  reads held before it; the four compose to the two results as the stage functions of the three arguments, and
  the run theorem reads them off the final memory of every weakly fair execution.
-/
import proofs.«129557_j89446988907158_1_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- Stretch A, 45 operations: the two scalar constants, the clip's six over its own buffers, and the
    element-wise chain up to the upper relaxation's offsets. -/
abbrev opsA : List (HloOp τ sig (Elt F)) :=
  [ StableHlo.nullary main_cst (constant S_ .f32 0x00000000#32),
    StableHlo.nullary main_cst_0 (constant S_ .f32 0x3F800000#32),
    StableHlo.TRef.unary (.of main_cst) main_call0.v0 id,
    StableHlo.TRef.unary main_call0.v0 main_call0.v1 (broadcastInDim S1x8192x1 ![] bcast_S_S1x8192x1),
    StableHlo.TRef.binary main_call0.v1 (.of main_arg2) main_call0.v2 maximumf,
    StableHlo.TRef.unary (.of main_cst_0) main_call0.v3 id,
    StableHlo.TRef.unary main_call0.v3 main_call0.v4 (broadcastInDim S1x8192x1 ![] bcast_S_S1x8192x1),
    StableHlo.TRef.binary main_call0.v4 main_call0.v2 main_call0.v5 minimumf,
    StableHlo.binary main_v0 main_arg2 main_v1 (subf : (⟨S1x8192x1, .f32⟩ : BufTy).Contents (Elt F) → (⟨S1x8192x1, .f32⟩ : BufTy).Contents (Elt F) → (⟨S1x8192x1, .f32⟩ : BufTy).Contents (Elt F)),
    StableHlo.binary main_arg2 main_v1 main_v2 (addf : (⟨S1x8192x1, .f32⟩ : BufTy).Contents (Elt F) → (⟨S1x8192x1, .f32⟩ : BufTy).Contents (Elt F) → (⟨S1x8192x1, .f32⟩ : BufTy).Contents (Elt F)),
    StableHlo.binary main_arg1 main_arg0 main_v3 (subf : (⟨S1x8192x1, .f32⟩ : BufTy).Contents (Elt F) → (⟨S1x8192x1, .f32⟩ : BufTy).Contents (Elt F) → (⟨S1x8192x1, .f32⟩ : BufTy).Contents (Elt F)),
    StableHlo.binary main_arg1 main_v3 main_v4 (Host.divf : (⟨S1x8192x1, .f32⟩ : BufTy).Contents (Elt F) → (⟨S1x8192x1, .f32⟩ : BufTy).Contents (Elt F) → (⟨S1x8192x1, .f32⟩ : BufTy).Contents (Elt F)),
    StableHlo.nullary main_cst_1 (constant S_ .f32 0x00000000#32),
    StableHlo.unary main_cst_1 main_v5 (broadcastInDim S1x8192x1 ![] bcast_S_S1x8192x1 : (⟨S_, .f32⟩ : BufTy).Contents (Elt F) → (⟨S1x8192x1, .f32⟩ : BufTy).Contents (Elt F)),
    StableHlo.binary main_arg0 main_v5 main_v6 (cmpf .oge : (⟨S1x8192x1, .f32⟩ : BufTy).Contents (Elt F) → (⟨S1x8192x1, .f32⟩ : BufTy).Contents (Elt F) → (⟨S1x8192x1, .i1⟩ : BufTy).Contents (Elt F)),
    StableHlo.nullary main_cst_2 (constant S_ .f32 0x00000000#32),
    StableHlo.unary main_cst_2 main_v7 (broadcastInDim S1x8192x1 ![] bcast_S_S1x8192x1 : (⟨S_, .f32⟩ : BufTy).Contents (Elt F) → (⟨S1x8192x1, .f32⟩ : BufTy).Contents (Elt F)),
    StableHlo.binary main_arg1 main_v7 main_v8 (cmpf .oge : (⟨S1x8192x1, .f32⟩ : BufTy).Contents (Elt F) → (⟨S1x8192x1, .f32⟩ : BufTy).Contents (Elt F) → (⟨S1x8192x1, .i1⟩ : BufTy).Contents (Elt F)),
    StableHlo.binary main_v6 main_v8 main_v9 (andi : (⟨S1x8192x1, .i1⟩ : BufTy).Contents (Elt F) → (⟨S1x8192x1, .i1⟩ : BufTy).Contents (Elt F) → (⟨S1x8192x1, .i1⟩ : BufTy).Contents (Elt F)),
    StableHlo.unary main_v9 main_v10 (uitofp .f32 : (⟨S1x8192x1, .i1⟩ : BufTy).Contents (Elt F) → (⟨S1x8192x1, .f32⟩ : BufTy).Contents (Elt F)),
    StableHlo.nullary main_cst_3 (constant S_ .f32 0x00000000#32),
    StableHlo.unary main_cst_3 main_v11 (broadcastInDim S1x8192x1 ![] bcast_S_S1x8192x1 : (⟨S_, .f32⟩ : BufTy).Contents (Elt F) → (⟨S1x8192x1, .f32⟩ : BufTy).Contents (Elt F)),
    StableHlo.binary main_arg0 main_v11 main_v12 (cmpf .olt : (⟨S1x8192x1, .f32⟩ : BufTy).Contents (Elt F) → (⟨S1x8192x1, .f32⟩ : BufTy).Contents (Elt F) → (⟨S1x8192x1, .i1⟩ : BufTy).Contents (Elt F)),
    StableHlo.nullary main_cst_4 (constant S_ .f32 0x00000000#32),
    StableHlo.unary main_cst_4 main_v13 (broadcastInDim S1x8192x1 ![] bcast_S_S1x8192x1 : (⟨S_, .f32⟩ : BufTy).Contents (Elt F) → (⟨S1x8192x1, .f32⟩ : BufTy).Contents (Elt F)),
    StableHlo.binary main_arg1 main_v13 main_v14 (cmpf .oge : (⟨S1x8192x1, .f32⟩ : BufTy).Contents (Elt F) → (⟨S1x8192x1, .f32⟩ : BufTy).Contents (Elt F) → (⟨S1x8192x1, .i1⟩ : BufTy).Contents (Elt F)),
    StableHlo.binary main_v12 main_v14 main_v15 (andi : (⟨S1x8192x1, .i1⟩ : BufTy).Contents (Elt F) → (⟨S1x8192x1, .i1⟩ : BufTy).Contents (Elt F) → (⟨S1x8192x1, .i1⟩ : BufTy).Contents (Elt F)),
    StableHlo.unary main_v15 main_v16 (uitofp .f32 : (⟨S1x8192x1, .i1⟩ : BufTy).Contents (Elt F) → (⟨S1x8192x1, .f32⟩ : BufTy).Contents (Elt F)),
    StableHlo.nullary main_cst_5 (constant S_ .f32 0x00000000#32),
    StableHlo.unary main_cst_5 main_v17 (broadcastInDim S1x8192x1 ![] bcast_S_S1x8192x1 : (⟨S_, .f32⟩ : BufTy).Contents (Elt F) → (⟨S1x8192x1, .f32⟩ : BufTy).Contents (Elt F)),
    StableHlo.binary main_arg0 main_v17 main_v18 (cmpf .olt : (⟨S1x8192x1, .f32⟩ : BufTy).Contents (Elt F) → (⟨S1x8192x1, .f32⟩ : BufTy).Contents (Elt F) → (⟨S1x8192x1, .i1⟩ : BufTy).Contents (Elt F)),
    StableHlo.nullary main_cst_6 (constant S_ .f32 0x00000000#32),
    StableHlo.unary main_cst_6 main_v19 (broadcastInDim S1x8192x1 ![] bcast_S_S1x8192x1 : (⟨S_, .f32⟩ : BufTy).Contents (Elt F) → (⟨S1x8192x1, .f32⟩ : BufTy).Contents (Elt F)),
    StableHlo.binary main_arg1 main_v19 main_v20 (cmpf .ogt : (⟨S1x8192x1, .f32⟩ : BufTy).Contents (Elt F) → (⟨S1x8192x1, .f32⟩ : BufTy).Contents (Elt F) → (⟨S1x8192x1, .i1⟩ : BufTy).Contents (Elt F)),
    StableHlo.binary main_v18 main_v20 main_v21 (andi : (⟨S1x8192x1, .i1⟩ : BufTy).Contents (Elt F) → (⟨S1x8192x1, .i1⟩ : BufTy).Contents (Elt F) → (⟨S1x8192x1, .i1⟩ : BufTy).Contents (Elt F)),
    StableHlo.unary main_v21 main_v22 (uitofp .f32 : (⟨S1x8192x1, .i1⟩ : BufTy).Contents (Elt F) → (⟨S1x8192x1, .f32⟩ : BufTy).Contents (Elt F)),
    StableHlo.binary main_v16 main_v2 main_v23 (mulf : (⟨S1x8192x1, .f32⟩ : BufTy).Contents (Elt F) → (⟨S1x8192x1, .f32⟩ : BufTy).Contents (Elt F) → (⟨S1x8192x1, .f32⟩ : BufTy).Contents (Elt F)),
    StableHlo.binary main_v10 main_v23 main_v24 (addf : (⟨S1x8192x1, .f32⟩ : BufTy).Contents (Elt F) → (⟨S1x8192x1, .f32⟩ : BufTy).Contents (Elt F) → (⟨S1x8192x1, .f32⟩ : BufTy).Contents (Elt F)),
    StableHlo.binary main_v16 main_v4 main_v25 (mulf : (⟨S1x8192x1, .f32⟩ : BufTy).Contents (Elt F) → (⟨S1x8192x1, .f32⟩ : BufTy).Contents (Elt F) → (⟨S1x8192x1, .f32⟩ : BufTy).Contents (Elt F)),
    StableHlo.binary main_v10 main_v25 main_v26 (addf : (⟨S1x8192x1, .f32⟩ : BufTy).Contents (Elt F) → (⟨S1x8192x1, .f32⟩ : BufTy).Contents (Elt F) → (⟨S1x8192x1, .f32⟩ : BufTy).Contents (Elt F)),
    StableHlo.nullary main_cst_7 (constant S_ .f32 0x00000000#32),
    StableHlo.unary main_cst_7 main_v27 (broadcastInDim S1x8192x1 ![] bcast_S_S1x8192x1 : (⟨S_, .f32⟩ : BufTy).Contents (Elt F) → (⟨S1x8192x1, .f32⟩ : BufTy).Contents (Elt F)),
    StableHlo.unary main_v4 main_v28 (Host.negf : (⟨S1x8192x1, .f32⟩ : BufTy).Contents (Elt F) → (⟨S1x8192x1, .f32⟩ : BufTy).Contents (Elt F)),
    StableHlo.binary main_v28 main_arg0 main_v29 (mulf : (⟨S1x8192x1, .f32⟩ : BufTy).Contents (Elt F) → (⟨S1x8192x1, .f32⟩ : BufTy).Contents (Elt F) → (⟨S1x8192x1, .f32⟩ : BufTy).Contents (Elt F)),
    StableHlo.binary main_v22 main_v29 main_v30 (mulf : (⟨S1x8192x1, .f32⟩ : BufTy).Contents (Elt F) → (⟨S1x8192x1, .f32⟩ : BufTy).Contents (Elt F) → (⟨S1x8192x1, .f32⟩ : BufTy).Contents (Elt F)) ]

/-- Stretch B, 30 operations: each weight vector flattened, spread over the diagonal of a matrix by the
    thirteen operations of the function that does it (the scalar zero, the padding by nothing, the row and
    column numbers, their comparison, the vector laid down a column, and the selection's three over its own
    buffers), and given its leading axis of length one. -/
abbrev opsB : List (HloOp τ sig (Elt F)) :=
  [ StableHlo.reshape main_v24 main_v31 rfl shapeCasts_S1x8192x1_S8192,
    StableHlo.TRef.nullary main_call1.cst (constant S_ .f32 0x00000000#32),
    StableHlo.TRef.binary (.of main_v31) main_call1.cst main_call1.v0 (fun x v => pad S8192 ![0] ![0] ![0] x v pads_S8192_S8192_000 h_S_),
    StableHlo.TRef.nullary main_call1.v1 (iotaInDim S8192x8192 32 0),
    StableHlo.TRef.nullary main_call1.v2 (iotaInDim S8192x8192 32 1),
    StableHlo.TRef.nullary main_call1.c (constantI S_ 32 0#32),
    StableHlo.TRef.unary main_call1.c main_call1.v3 (broadcastInDim S8192x8192 ![] bcast_S_S8192x8192),
    StableHlo.TRef.binary main_call1.v1 main_call1.v3 main_call1.v4 addi,
    StableHlo.TRef.binary main_call1.v4 main_call1.v2 main_call1.v5 (cmpi .eq),
    StableHlo.TRef.unary main_call1.v0 main_call1.v6 (broadcastInDim S8192x1 ![0] bcast_S8192_S8192x1_0),
    StableHlo.TRef.nullary main_call1.cst_0 (constant S_ .f32 0x00000000#32),
    StableHlo.TRef.unary main_call1.v6 main_call1.call0.v0 (broadcastInDim S8192x8192 ![0, 1] bcast_S8192x1_S8192x8192_0_1),
    StableHlo.TRef.unary main_call1.cst_0 main_call1.call0.v1 (broadcastInDim S8192x8192 ![] bcast_S_S8192x8192),
    StableHlo.TRef.ternary main_call1.v5 main_call1.call0.v0 main_call1.call0.v1 main_call1.call0.v2 select,
    StableHlo.unary main_v32 main_v33 (broadcastInDim S1x8192x8192 ![1, 2] bcast_S8192x8192_S1x8192x8192_1_2 : (⟨S8192x8192, .f32⟩ : BufTy).Contents (Elt F) → (⟨S1x8192x8192, .f32⟩ : BufTy).Contents (Elt F)),
    StableHlo.reshape main_v26 main_v34 rfl shapeCasts_S1x8192x1_S8192,
    StableHlo.TRef.nullary main_call2.cst (constant S_ .f32 0x00000000#32),
    StableHlo.TRef.binary (.of main_v34) main_call2.cst main_call2.v0 (fun x v => pad S8192 ![0] ![0] ![0] x v pads_S8192_S8192_000 h_S_),
    StableHlo.TRef.nullary main_call2.v1 (iotaInDim S8192x8192 32 0),
    StableHlo.TRef.nullary main_call2.v2 (iotaInDim S8192x8192 32 1),
    StableHlo.TRef.nullary main_call2.c (constantI S_ 32 0#32),
    StableHlo.TRef.unary main_call2.c main_call2.v3 (broadcastInDim S8192x8192 ![] bcast_S_S8192x8192),
    StableHlo.TRef.binary main_call2.v1 main_call2.v3 main_call2.v4 addi,
    StableHlo.TRef.binary main_call2.v4 main_call2.v2 main_call2.v5 (cmpi .eq),
    StableHlo.TRef.unary main_call2.v0 main_call2.v6 (broadcastInDim S8192x1 ![0] bcast_S8192_S8192x1_0),
    StableHlo.TRef.nullary main_call2.cst_0 (constant S_ .f32 0x00000000#32),
    StableHlo.TRef.unary main_call2.v6 main_call2.call0.v0 (broadcastInDim S8192x8192 ![0, 1] bcast_S8192x1_S8192x8192_0_1),
    StableHlo.TRef.unary main_call2.cst_0 main_call2.call0.v1 (broadcastInDim S8192x8192 ![] bcast_S_S8192x8192),
    StableHlo.TRef.ternary main_call2.v5 main_call2.call0.v0 main_call2.call0.v1 main_call2.call0.v2 select,
    StableHlo.unary main_v35 main_v36 (broadcastInDim S1x8192x8192 ![1, 2] bcast_S8192x8192_S1x8192x8192_1_2 : (⟨S8192x8192, .f32⟩ : BufTy).Contents (Elt F) → (⟨S1x8192x8192, .f32⟩ : BufTy).Contents (Elt F)) ]

/-- Stretch C, 14 operations: the lower relaxation's matrix split at zero into its positive and its negative
    part, each flattened to a plain matrix and contracted with a bound vector laid down a column. -/
abbrev opsC : List (HloOp τ sig (Elt F)) :=
  [ StableHlo.nullary main_cst_8 (constant S_ .f32 0x00000000#32),
    StableHlo.unary main_cst_8 main_v37 (broadcastInDim S1x8192x8192 ![] bcast_S_S1x8192x8192 : (⟨S_, .f32⟩ : BufTy).Contents (Elt F) → (⟨S1x8192x8192, .f32⟩ : BufTy).Contents (Elt F)),
    StableHlo.binary main_v33 main_v37 main_v38 (maximumf : (⟨S1x8192x8192, .f32⟩ : BufTy).Contents (Elt F) → (⟨S1x8192x8192, .f32⟩ : BufTy).Contents (Elt F) → (⟨S1x8192x8192, .f32⟩ : BufTy).Contents (Elt F)),
    StableHlo.reshape main_v38 main_v39 rfl shapeCasts_S1x8192x8192_S8192x8192,
    StableHlo.reshape main_arg0 main_v40 rfl shapeCasts_S1x8192x1_S8192x1,
    StableHlo.binary main_v39 main_v40 main_v41 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F)),
    StableHlo.unary main_v41 main_v42 (broadcastInDim S1x8192x1 ![1, 2] bcast_S8192x1_S1x8192x1_1_2 : (⟨S8192x1, .f32⟩ : BufTy).Contents (Elt F) → (⟨S1x8192x1, .f32⟩ : BufTy).Contents (Elt F)),
    StableHlo.nullary main_cst_9 (constant S_ .f32 0x00000000#32),
    StableHlo.unary main_cst_9 main_v43 (broadcastInDim S1x8192x8192 ![] bcast_S_S1x8192x8192 : (⟨S_, .f32⟩ : BufTy).Contents (Elt F) → (⟨S1x8192x8192, .f32⟩ : BufTy).Contents (Elt F)),
    StableHlo.binary main_v33 main_v43 main_v44 (minimumf : (⟨S1x8192x8192, .f32⟩ : BufTy).Contents (Elt F) → (⟨S1x8192x8192, .f32⟩ : BufTy).Contents (Elt F) → (⟨S1x8192x8192, .f32⟩ : BufTy).Contents (Elt F)),
    StableHlo.reshape main_v44 main_v45 rfl shapeCasts_S1x8192x8192_S8192x8192,
    StableHlo.reshape main_arg1 main_v46 rfl shapeCasts_S1x8192x1_S8192x1,
    StableHlo.binary main_v45 main_v46 main_v47 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F)),
    StableHlo.unary main_v47 main_v48 (broadcastInDim S1x8192x1 ![1, 2] bcast_S8192x1_S1x8192x1_1_2 : (⟨S8192x1, .f32⟩ : BufTy).Contents (Elt F) → (⟨S1x8192x1, .f32⟩ : BufTy).Contents (Elt F)) ]

/-- Stretch D, 18 operations: the lower relaxation's two products added and the zero offsets added to the sum; the
    upper relaxation's matrix split at zero, its positive part contracted with the upper bounds and its negative
    part with the lower bounds, the two products added and the offsets added to the sum. -/
abbrev opsD : List (HloOp τ sig (Elt F)) :=
  [ StableHlo.binary main_v42 main_v48 main_v49 (addf : (⟨S1x8192x1, .f32⟩ : BufTy).Contents (Elt F) → (⟨S1x8192x1, .f32⟩ : BufTy).Contents (Elt F) → (⟨S1x8192x1, .f32⟩ : BufTy).Contents (Elt F)),
    StableHlo.binary main_v49 main_v27 main_v50 (addf : (⟨S1x8192x1, .f32⟩ : BufTy).Contents (Elt F) → (⟨S1x8192x1, .f32⟩ : BufTy).Contents (Elt F) → (⟨S1x8192x1, .f32⟩ : BufTy).Contents (Elt F)),
    StableHlo.nullary main_cst_10 (constant S_ .f32 0x00000000#32),
    StableHlo.unary main_cst_10 main_v51 (broadcastInDim S1x8192x8192 ![] bcast_S_S1x8192x8192 : (⟨S_, .f32⟩ : BufTy).Contents (Elt F) → (⟨S1x8192x8192, .f32⟩ : BufTy).Contents (Elt F)),
    StableHlo.binary main_v36 main_v51 main_v52 (maximumf : (⟨S1x8192x8192, .f32⟩ : BufTy).Contents (Elt F) → (⟨S1x8192x8192, .f32⟩ : BufTy).Contents (Elt F) → (⟨S1x8192x8192, .f32⟩ : BufTy).Contents (Elt F)),
    StableHlo.reshape main_v52 main_v53 rfl shapeCasts_S1x8192x8192_S8192x8192,
    StableHlo.reshape main_arg1 main_v54 rfl shapeCasts_S1x8192x1_S8192x1,
    StableHlo.binary main_v53 main_v54 main_v55 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F)),
    StableHlo.unary main_v55 main_v56 (broadcastInDim S1x8192x1 ![1, 2] bcast_S8192x1_S1x8192x1_1_2 : (⟨S8192x1, .f32⟩ : BufTy).Contents (Elt F) → (⟨S1x8192x1, .f32⟩ : BufTy).Contents (Elt F)),
    StableHlo.nullary main_cst_11 (constant S_ .f32 0x00000000#32),
    StableHlo.unary main_cst_11 main_v57 (broadcastInDim S1x8192x8192 ![] bcast_S_S1x8192x8192 : (⟨S_, .f32⟩ : BufTy).Contents (Elt F) → (⟨S1x8192x8192, .f32⟩ : BufTy).Contents (Elt F)),
    StableHlo.binary main_v36 main_v57 main_v58 (minimumf : (⟨S1x8192x8192, .f32⟩ : BufTy).Contents (Elt F) → (⟨S1x8192x8192, .f32⟩ : BufTy).Contents (Elt F) → (⟨S1x8192x8192, .f32⟩ : BufTy).Contents (Elt F)),
    StableHlo.reshape main_v58 main_v59 rfl shapeCasts_S1x8192x8192_S8192x8192,
    StableHlo.reshape main_arg0 main_v60 rfl shapeCasts_S1x8192x1_S8192x1,
    StableHlo.binary main_v59 main_v60 main_v61 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F)),
    StableHlo.unary main_v61 main_v62 (broadcastInDim S1x8192x1 ![1, 2] bcast_S8192x1_S1x8192x1_1_2 : (⟨S8192x1, .f32⟩ : BufTy).Contents (Elt F) → (⟨S1x8192x1, .f32⟩ : BufTy).Contents (Elt F)),
    StableHlo.binary main_v56 main_v62 main_v63 (addf : (⟨S1x8192x1, .f32⟩ : BufTy).Contents (Elt F) → (⟨S1x8192x1, .f32⟩ : BufTy).Contents (Elt F) → (⟨S1x8192x1, .f32⟩ : BufTy).Contents (Elt F)),
    StableHlo.binary main_v63 main_v30 main_v64 (addf : (⟨S1x8192x1, .f32⟩ : BufTy).Contents (Elt F) → (⟨S1x8192x1, .f32⟩ : BufTy).Contents (Elt F) → (⟨S1x8192x1, .f32⟩ : BufTy).Contents (Elt F)) ]

/-- The whole line: the four stretches in order. -/
abbrev ops : List (HloOp τ sig (Elt F)) := (opsA ++ (opsB ++ opsC)) ++ opsD

/-! ## @main is that line -/

set_option maxRecDepth 8192 in
set_option maxHeartbeats 4000000 in
/-- The first window of @main is stretches A, B and C: the three calls unfolded at their records, both sides are
    one chain of steps once sequencing is reassociated. -/
theorem main_part0_eq (c : Dev nD) : main_part0 (F := F) c = seq (opsA ++ (opsB ++ opsC)) := by
  simp only [main_part0, fn_clip.body, fn_diag.body, fn_where.body, opsA, opsB, opsC, List.cons_append, List.nil_append,
    seq, bind_assoc, pure_bind]
  rfl

set_option maxRecDepth 4096 in
set_option maxHeartbeats 1000000 in
/-- The second window of @main is stretch D. -/
theorem main_part1_eq (c : Dev nD) : main_part1 (F := F) c = seq opsD := by
  simp only [main_part1, seq, bind_assoc, pure_bind]

/-- @main runs its two windows in order: the line of the first, then the line of the second. -/
theorem main_eq (c : Dev nD) : main (F := F) c = seq ops := by
  simp only [main, main_part0_eq, main_part1_eq, ops, seq_append]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
private theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem opsA_sub : (opsA : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub ..,
    binary_bufs_sub .., binary_bufs_sub .., binary_bufs_sub .., binary_bufs_sub ..,
    nullary_bufs_sub .., unary_bufs_sub .., binary_bufs_sub ..,
    nullary_bufs_sub .., unary_bufs_sub .., binary_bufs_sub ..,
    binary_bufs_sub .., unary_bufs_sub ..,
    nullary_bufs_sub .., unary_bufs_sub .., binary_bufs_sub ..,
    nullary_bufs_sub .., unary_bufs_sub .., binary_bufs_sub ..,
    binary_bufs_sub .., unary_bufs_sub ..,
    nullary_bufs_sub .., unary_bufs_sub .., binary_bufs_sub ..,
    nullary_bufs_sub .., unary_bufs_sub .., binary_bufs_sub ..,
    binary_bufs_sub .., unary_bufs_sub ..,
    binary_bufs_sub .., binary_bufs_sub .., binary_bufs_sub .., binary_bufs_sub ..,
    nullary_bufs_sub .., unary_bufs_sub ..,
    unary_bufs_sub .., binary_bufs_sub .., binary_bufs_sub ..⟩

theorem opsB_sub : (opsB : List (HloOp τ sig (Elt F))).Forall fun op => op.bufs ⊆ tcRefs τ sig :=
  ⟨reshape_bufs_sub .., nullary_bufs_sub .., binary_bufs_sub .., nullary_bufs_sub .., nullary_bufs_sub .., nullary_bufs_sub ..,
    unary_bufs_sub .., binary_bufs_sub .., binary_bufs_sub .., unary_bufs_sub .., nullary_bufs_sub ..,
    unary_bufs_sub .., unary_bufs_sub .., ternary_bufs_sub .., unary_bufs_sub ..,
    reshape_bufs_sub .., nullary_bufs_sub .., binary_bufs_sub .., nullary_bufs_sub .., nullary_bufs_sub .., nullary_bufs_sub ..,
    unary_bufs_sub .., binary_bufs_sub .., binary_bufs_sub .., unary_bufs_sub .., nullary_bufs_sub ..,
    unary_bufs_sub .., unary_bufs_sub .., ternary_bufs_sub .., unary_bufs_sub ..⟩

theorem opsC_sub : (opsC : List (HloOp τ sig (Elt F))).Forall fun op => op.bufs ⊆ tcRefs τ sig :=
  ⟨nullary_bufs_sub .., unary_bufs_sub .., binary_bufs_sub .., reshape_bufs_sub .., reshape_bufs_sub .., binary_bufs_sub ..,
    unary_bufs_sub ..,
    nullary_bufs_sub .., unary_bufs_sub .., binary_bufs_sub .., reshape_bufs_sub .., reshape_bufs_sub .., binary_bufs_sub ..,
    unary_bufs_sub ..⟩

theorem opsD_sub : (opsD : List (HloOp τ sig (Elt F))).Forall fun op => op.bufs ⊆ tcRefs τ sig :=
  ⟨binary_bufs_sub .., binary_bufs_sub ..,
    nullary_bufs_sub .., unary_bufs_sub .., binary_bufs_sub .., reshape_bufs_sub .., reshape_bufs_sub .., binary_bufs_sub ..,
    unary_bufs_sub ..,
    nullary_bufs_sub .., unary_bufs_sub .., binary_bufs_sub .., reshape_bufs_sub .., reshape_bufs_sub .., binary_bufs_sub ..,
    unary_bufs_sub ..,
    binary_bufs_sub .., binary_bufs_sub ..⟩

/-- Every operation of the line touches TensorCore references only. -/
theorem ops_sub : (ops : List (HloOp τ sig (Elt F))).Forall fun op => op.bufs ⊆ tcRefs τ sig :=
  forall_append (forall_append opsA_sub (forall_append opsB_sub opsC_sub)) opsD_sub

theorem opsA_fresh : (opsA : List (HloOp τ sig (Elt F))).Forall fun op => op.fresh = ∅ :=
  ⟨rfl, rfl, rfl, rfl, rfl, rfl, rfl, rfl, rfl, rfl, rfl, rfl, rfl, rfl, rfl,
    rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl⟩

/-- Every operation of the line determines its results: none leaves a buffer at contents not chosen. -/
theorem ops_fresh : ∀ op ∈ (ops : List (HloOp τ sig (Elt F))), op.fresh = ∅ :=
  List.forall_iff_forall_mem.mp (forall_append (forall_append opsA_fresh (forall_append opsB_fresh opsC_fresh)) opsD_fresh)

/-- The contents after two lines in a row: the second line's fold over the first's. -/
theorem after_append' : ∀ (l₁ l₂ : List (HloOp τ sig (Elt F))) (V : Valuation τ sig (Elt F)),
    after (l₁ ++ l₂) V = after l₂ (after l₁ V)
  | [], _, _ => rfl
  | _ :: l₁, l₂, V => after_append' l₁ l₂ _

/-! ## What each stretch leaves in the buffers read after it

Each statement is for any contents `V` before the stretch. The fold over the stretch is unrolled; at a buffer an
operation writes, its result is its function of its operands' contents, and at any other buffer what was there. The
typed references of a call's record are literal references, so the moves of contents along their type equations
are the identity; what is left is the stage function's own term. -/

/-- After stretch A the lower relaxation's weights are in their buffer. -/
theorem A_v24 (V : Valuation τ sig (Elt F)) :
    after opsA V (main_v24 : DevRef τ sig)
      = Stages.wLowerV (F := F) (V (main_arg0 : DevRef τ sig)) (V (main_arg1 : DevRef τ sig)) (V (main_arg2 : DevRef τ sig)) := by
  after_results_simp <;> (try simp only [TRef.ofBuf, TRef.toBuf, cast_eq]) <;> rfl

/-- After stretch A the upper relaxation's weights are in their buffer. -/
theorem A_v26 (V : Valuation τ sig (Elt F)) :
    after opsA V (main_v26 : DevRef τ sig)
      = Stages.wUpperV (F := F) (V (main_arg0 : DevRef τ sig)) (V (main_arg1 : DevRef τ sig)) := by
  after_results_simp <;> (try simp only [TRef.ofBuf, TRef.toBuf, cast_eq]) <;> rfl

/-- After stretch A the lower relaxation's offsets, all zero, are in their buffer. -/
theorem A_v27 (V : Valuation τ sig (Elt F)) :
    after opsA V (main_v27 : DevRef τ sig) = Stages.zeroV (F := F) := by
  after_results_simp <;> (try simp only [TRef.ofBuf, TRef.toBuf, cast_eq]) <;> rfl

/-- After stretch A the upper relaxation's offsets are in their buffer. -/
theorem A_v30 (V : Valuation τ sig (Elt F)) :
    after opsA V (main_v30 : DevRef τ sig)
      = Stages.biasV (F := F) (V (main_arg0 : DevRef τ sig)) (V (main_arg1 : DevRef τ sig)) := by
  after_results_simp <;> (try simp only [TRef.ofBuf, TRef.toBuf, cast_eq]) <;> rfl

theorem A_arg0 (V : Valuation τ sig (Elt F)) :
    after opsA V (main_arg0 : DevRef τ sig) = V (main_arg0 : DevRef τ sig) := by
  after_results_simp

theorem A_arg1 (V : Valuation τ sig (Elt F)) :
    after opsA V (main_arg1 : DevRef τ sig) = V (main_arg1 : DevRef τ sig) := by
  after_results_simp

theorem A_arg2 (V : Valuation τ sig (Elt F)) :
    after opsA V (main_arg2 : DevRef τ sig) = V (main_arg2 : DevRef τ sig) := by
  after_results_simp

/-- After stretch B the lower relaxation's matrix is the diagonal spread of the weights stretch A left. -/
theorem B_v33 (V : Valuation τ sig (Elt F)) :
    after opsB V (main_v33 : DevRef τ sig) = Stages.diagV (F := F) (V (main_v24 : DevRef τ sig)) := by
  after_results_simp <;> (try simp only [TRef.ofBuf, TRef.toBuf, cast_eq]) <;> rfl

/-- After stretch B the upper relaxation's matrix is the diagonal spread of the weights stretch A left. -/
theorem B_v36 (V : Valuation τ sig (Elt F)) :
    after opsB V (main_v36 : DevRef τ sig) = Stages.diagV (F := F) (V (main_v26 : DevRef τ sig)) := by
  after_results_simp <;> (try simp only [TRef.ofBuf, TRef.toBuf, cast_eq]) <;> rfl

theorem B_v27 (V : Valuation τ sig (Elt F)) :
    after opsB V (main_v27 : DevRef τ sig) = V (main_v27 : DevRef τ sig) := by
  after_results_simp

theorem B_v30 (V : Valuation τ sig (Elt F)) :
    after opsB V (main_v30 : DevRef τ sig) = V (main_v30 : DevRef τ sig) := by
  after_results_simp

theorem B_arg0 (V : Valuation τ sig (Elt F)) :
    after opsB V (main_arg0 : DevRef τ sig) = V (main_arg0 : DevRef τ sig) := by
  after_results_simp

theorem B_arg1 (V : Valuation τ sig (Elt F)) :
    after opsB V (main_arg1 : DevRef τ sig) = V (main_arg1 : DevRef τ sig) := by
  after_results_simp

theorem B_arg2 (V : Valuation τ sig (Elt F)) :
    after opsB V (main_arg2 : DevRef τ sig) = V (main_arg2 : DevRef τ sig) := by
  after_results_simp

/-- After stretch C: the positive part of the lower relaxation's matrix times the lower bounds. -/
theorem C_v42 (V : Valuation τ sig (Elt F)) :
    after opsC V (main_v42 : DevRef τ sig)
      = Stages.mvV (F := F) (maximumf (V (main_v33 : DevRef τ sig)) Stages.zeroM) (V (main_arg0 : DevRef τ sig)) := by
  after_results_simp <;> rfl

/-- After stretch C: the negative part of the lower relaxation's matrix times the upper bounds. -/
theorem C_v48 (V : Valuation τ sig (Elt F)) :
    after opsC V (main_v48 : DevRef τ sig)
      = Stages.mvV (F := F) (minimumf (V (main_v33 : DevRef τ sig)) Stages.zeroM) (V (main_arg1 : DevRef τ sig)) := by
  after_results_simp <;> rfl

theorem C_v36 (V : Valuation τ sig (Elt F)) :
    after opsC V (main_v36 : DevRef τ sig) = V (main_v36 : DevRef τ sig) := by
  after_results_simp

theorem C_v27 (V : Valuation τ sig (Elt F)) :
    after opsC V (main_v27 : DevRef τ sig) = V (main_v27 : DevRef τ sig) := by
  after_results_simp

theorem C_v30 (V : Valuation τ sig (Elt F)) :
    after opsC V (main_v30 : DevRef τ sig) = V (main_v30 : DevRef τ sig) := by
  after_results_simp

theorem C_arg0 (V : Valuation τ sig (Elt F)) :
    after opsC V (main_arg0 : DevRef τ sig) = V (main_arg0 : DevRef τ sig) := by
  after_results_simp

theorem C_arg1 (V : Valuation τ sig (Elt F)) :
    after opsC V (main_arg1 : DevRef τ sig) = V (main_arg1 : DevRef τ sig) := by
  after_results_simp

theorem C_arg2 (V : Valuation τ sig (Elt F)) :
    after opsC V (main_arg2 : DevRef τ sig) = V (main_arg2 : DevRef τ sig) := by
  after_results_simp

/-- After stretch D the first result is the sum of stretch C's two products and the zero offsets. -/
theorem D_v50 (V : Valuation τ sig (Elt F)) :
    after opsD V (main_v50 : DevRef τ sig)
      = addf (F := F) (addf (F := F) (V (main_v42 : DevRef τ sig)) (V (main_v48 : DevRef τ sig))) (V (main_v27 : DevRef τ sig)) := by
  after_results_simp <;> rfl

/-- After stretch D the second result: the positive part of the upper relaxation's matrix times the upper bounds,
    plus its negative part times the lower bounds, plus the offsets. -/
theorem D_v64 (V : Valuation τ sig (Elt F)) :
    after opsD V (main_v64 : DevRef τ sig)
      = addf (F := F)
          (addf (F := F)
            (Stages.mvV (F := F) (maximumf (V (main_v36 : DevRef τ sig)) Stages.zeroM) (V (main_arg1 : DevRef τ sig)))
            (Stages.mvV (F := F) (minimumf (V (main_v36 : DevRef τ sig)) Stages.zeroM) (V (main_arg0 : DevRef τ sig))))
          (V (main_v30 : DevRef τ sig)) := by
  after_results_simp <;> rfl

theorem D_arg0 (V : Valuation τ sig (Elt F)) :
    after opsD V (main_arg0 : DevRef τ sig) = V (main_arg0 : DevRef τ sig) := by
  after_results_simp

theorem D_arg1 (V : Valuation τ sig (Elt F)) :
    after opsD V (main_arg1 : DevRef τ sig) = V (main_arg1 : DevRef τ sig) := by
  after_results_simp

theorem D_arg2 (V : Valuation τ sig (Elt F)) :
    after opsD V (main_arg2 : DevRef τ sig) = V (main_arg2 : DevRef τ sig) := by
  after_results_simp

/-! ## The whole line

The four stretches in a row: the contents after the line are stretch D's fold over stretch C's over stretch B's over
stretch A's, and each buffer is read back through the statements above, outermost stretch first. -/

/-- After the whole line the first result is the reference's lower bounds of the three arguments. -/
theorem ops_v50 (V : Valuation τ sig (Elt F)) :
    after ops V (main_v50 : DevRef τ sig)
      = Stages.refLower (F := F) (V (main_arg0 : DevRef τ sig)) (V (main_arg1 : DevRef τ sig)) (V (main_arg2 : DevRef τ sig)) := by
  simp only [ops, after_append']
  rw [D_v50, C_v42, C_v48, C_v27, B_v33, B_arg0, B_arg1, B_v27, A_v24, A_arg0, A_arg1, A_v27]
  rfl

/-- After the whole line the second result is the reference's upper bounds of the first two arguments. -/
theorem ops_v64 (V : Valuation τ sig (Elt F)) :
    after ops V (main_v64 : DevRef τ sig)
      = Stages.refUpper (F := F) (V (main_arg0 : DevRef τ sig)) (V (main_arg1 : DevRef τ sig)) := by
  simp only [ops, after_append']
  rw [D_v64, C_v36, C_arg1, C_arg0, C_v30, B_v36, B_arg1, B_arg0, B_v30, A_v26, A_arg1, A_arg0, A_v30]
  rfl

theorem ops_arg0 (V : Valuation τ sig (Elt F)) :
    after ops V (main_arg0 : DevRef τ sig) = V (main_arg0 : DevRef τ sig) := by
  simp only [ops, after_append']
  rw [D_arg0, C_arg0, B_arg0, A_arg0]

theorem ops_arg1 (V : Valuation τ sig (Elt F)) :
    after ops V (main_arg1 : DevRef τ sig) = V (main_arg1 : DevRef τ sig) := by
  simp only [ops, after_append']
  rw [D_arg1, C_arg1, B_arg1, A_arg1]

theorem ops_arg2 (V : Valuation τ sig (Elt F)) :
    after ops V (main_arg2 : DevRef τ sig) = V (main_arg2 : DevRef τ sig) := by
  simp only [ops, after_append']
  rw [D_arg2, C_arg2, B_arg2, A_arg2]

/-! ## The run -/

/-- On every device, for any float values, from any memory with zero counters: every weakly fair execution of the
    reference's @main terminates with the two result buffers at the reference's lower and upper bounds of the
    arguments' launch contents, and the three arguments unchanged. -/
theorem run_stages (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v50) = Stages.refLower (F := F) (m ((c.tc : Thread nD τ).loc main_arg0)) (m ((c.tc : Thread nD τ).loc main_arg1)) (m ((c.tc : Thread nD τ).loc main_arg2))
      ∧ r.2.mem ((c.tc : Thread nD τ).loc main_v64) = Stages.refUpper (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v50).trans (ops_v50 _), (h c main_v64).trans (ops_v64 _),
      (h c main_arg0).trans (ops_arg0 _), (h c main_arg1).trans (ops_arg1 _), (h c main_arg2).trans (ops_arg2 _)⟩)
    (run_seq scopedRefs_eq scopedSems_eq defs main (fun _ => ops) main_eq (fun _ => ops_sub) m ρ (fun _ => ops_fresh))

end Cert.ReferenceIdeal.HandRun

end
-- ==== Proof.ReluAlgebra.lean ====
/-
  The four places where the two programs spell one extended real differently, and the collapse of a
  sum against a diagonal matrix.

  On the extended reals: a truth value read as a signed 32-bit integer after widening is the truth value read
  unsigned (both are 0 or 1); for a REAL slope `a` the straight-through spelling `a + (clip a - a)` is `clip a`
  (this is where finiteness is needed: at an infinite `a` the difference is not defined the same way); `0 - x` is
  `-x`; the host's quotient is the kernel's. And a sum `∑ k, f (D k) · v k` over a row `D` that is `w` at one
  index and zero elsewhere, for `f` with `f 0 = 0` (the positive part, the negative part), is its one diagonal
  term, because `0 · x = 0` for every extended real `x`, the infinities included.
-/
import proofs.«129557_j89446988907158_1_alg».proof.Proof.ReluScalar

noncomputable section

namespace Cert.ReluBound

open Idealize.ShloMosaic

/-- The zero word denotes zero. -/
theorem zeroW_eq : (zeroW : Ideal .f32) = 0 := Ideal.ofBits_zero_f32

/-- The word of one denotes one. -/
theorem oneW_eq : (oneW : Ideal .f32) = 1 := Ideal.ofBits_one_f32

/-- A one-bit value widened to 32 bits reads, as a signed integer, the number it reads unsigned. -/
theorem toInt_setWidth_bit : ∀ b : BitVec 1, (b.setWidth 32).toInt = (b.toNat : Int) := by decide

/-- So the kernel's and the host's conversions of a truth value agree. -/
theorem indK_eq_uitofp (b : BitVec 1) : indK (F := Ideal) b = FloatOps.uitofp (F := Ideal) .f32 b := by
  show (((b.setWidth 32).toInt : ℝ) : EReal) = ((b.toNat : ℝ) : EReal)
  rw [toInt_setWidth_bit b]
  norm_cast

/-- The clip of a real is a real. -/
theorem clipK_coe (r : ℝ) : clipK (F := Ideal) (r : EReal) = ((min 1 (max 0 r) : ℝ) : EReal) := by
  show min (oneW : Ideal .f32) (max (zeroW : Ideal .f32) (r : EReal)) = _
  rw [zeroW_eq, oneW_eq]
  rcases le_total 0 r with h | h
  · rw [max_eq_right (by exact_mod_cast h), max_eq_right h]
    rcases le_total 1 r with h1 | h1
    · rw [min_eq_left (by exact_mod_cast h1), min_eq_left h1]; norm_cast
    · rw [min_eq_right (by exact_mod_cast h1), min_eq_right h1]
  · rw [max_eq_left (by exact_mod_cast h), max_eq_left h]
    rw [min_eq_right (by norm_num), min_eq_right (by norm_num)]; norm_cast

/-- For a real slope the straight-through spelling `a + (clip a - a)` is `clip a`. -/
theorem ste_eq (r : ℝ) :
    FloatOps.addf (F := Ideal) (φ := .f32) (r : EReal)
      (FloatOps.subf (F := Ideal) (φ := .f32) (clipK (F := Ideal) (r : EReal)) (r : EReal))
      = clipK (F := Ideal) (r : EReal) := by
  rw [clipK_coe]
  show (r : EReal) + (((min 1 (max 0 r) : ℝ) : EReal) - (r : EReal)) = _
  rw [← EReal.coe_sub, ← EReal.coe_add]
  congr 1
  ring

/-- The host's negation is the kernel's `0 - x`. -/
theorem hostNegf_eq (x : Ideal .f32) : FloatOps.hostNegf x = FloatOps.subf (zeroW : Ideal .f32) x := by
  show -x = (zeroW : Ideal .f32) - x
  rw [zeroW_eq, zero_sub]

/-- The host's quotient is the kernel's. -/
theorem hostDivf_eq (x y : Ideal .f32) : FloatOps.hostDivf x y = FloatOps.divf x y := rfl

/-- A sum against a row that is `w` at `i₀` and zero elsewhere, under a map fixing zero, is its diagonal term. -/
theorem sum_diag {ι : Type} [Fintype ι] [DecidableEq ι] (f : EReal → EReal) (hf : f 0 = 0) (w : EReal)
    (v : ι → EReal) (i₀ : ι) : ∑ k, f (if k = i₀ then w else 0) * v k = f w * v i₀ := by
  rw [Finset.sum_eq_single i₀ (fun k _ hk => by rw [if_neg hk, hf, zero_mul])
    (fun h => absurd (Finset.mem_univ _) h), if_pos rfl]

end Cert.ReluBound

end
-- ==== Proof.RefRead.lean ====
/-
  The reference program's two results read at an index, on the extended reals.

  The reference spreads each weight vector `w` over the diagonal of an 8192 × 8192 matrix `D`, takes the positive and
  the negative part of `D` against the zero matrix, and multiplies each part with a bound vector. Read at one entry,

    D (i, k) = w i  if k = i,  0 otherwise

  (the row number plus a zero word is compared with the column number as 32-bit words, and two words of numbers below
  8192 are equal exactly when the numbers are; the vector reaches the matrix through a flattening, a pad of width
  zero, a column and a repetition along the columns). The positive part at (i, k) is then `max (w i) 0` on the diagonal and
  `max 0 0 = 0` off it, likewise the negative part with `min`. The product with a vector `x` is, at neuron `i`, the sum
  `∑ k, M (i, k) · x k`; off the diagonal every term is `0 · x k = 0` on the extended reals, the infinities included,
  so the sum is its one diagonal term `f (w i) · x i` (`f` the positive or the negative part). What is left is one
  element of each array: the reference's weights and offset are the per-element functions of the specification
  (the straight-through slope is the clipped slope for a real slope, a truth value reads the same signed and
  unsigned, the negation is `0 - x`, the host's quotient is the quotient), and adding the zero array adds zero.
-/
import proofs.«129557_j89446988907158_1_alg».proof.Proof.RefStages
import proofs.«129557_j89446988907158_1_alg».proof.Proof.ReluAlgebra
import Idealize.ShloMosaic.Lib.ValueIdx
import Idealize.ShloMosaic.Lib.ValueIdxCoords
import Idealize.ShloMosaic.Lib.Pipeline.Value
import Idealize.ShloMosaic.Lib.ValueLayout
import Idealize.ShloMosaic.Lib.IdealHost
import Idealize.ShloMosaic.Lib.StableHlo.Predicate
import Idealize.ShloMosaic.PureOps.Ideal.Laws

noncomputable section

namespace Cert.ReferenceIdeal.Read

open Cert.ReferenceIdeal Cert.ReferenceIdeal.Gen Cert.ReferenceIdeal.Stages Cert.ReluBound Idealize.ShloMosaic
  Idealize.ShloMosaic.ValueIdx
open scoped BigOperators

/-! ## Layout steps of the diagonal spread -/

/-- A pad of width zero on both sides and between the elements is the operand. -/
theorem pad_zero_apply {α : Type} (x : S8192.Idx → α) (v : S_.Idx → α) (i : Fin 8192) :
    pad S8192 ![0] ![0] ![0] x v pads_S8192_S8192_000 h_S_ (ix1 i) = x (ix1 i) := by
  unfold pad
  split
  · refine congrArg x (funext fun a => ?_)
    match a with
    | ⟨0, _⟩ => exact Fin.ext (by show (i.val - 0) / (0 + 1) = i.val; rw [Nat.sub_zero, Nat.zero_add, Nat.div_one])
  · next hin =>
    refine absurd (fun a => ?_) hin
    match a with
    | ⟨0, _⟩ =>
      refine ⟨Nat.zero_le _, ?_, ?_⟩
      · show (i.val - 0) % (0 + 1) = 0
        rw [Nat.zero_add, Nat.mod_one]
      · show (i.val - 0) / (0 + 1) < 8192
        rw [Nat.sub_zero, Nat.zero_add, Nat.div_one]; exact i.isLt

/-- The weight array [1, 8192, 1] flattened to a vector reads, at `i`, the weight of neuron `i`. -/
theorem flat_apply {α : Type} (w : S1x8192x1.Idx → α) (i : Fin 8192) :
    shapeCast S8192 w shapeCasts_S1x8192x1_S8192 (ix1 i) = w (ix3 (0 : Fin 1) i (0 : Fin 1)) :=
  shapeCast_apply w _ _ _ (by
    rw [Shape.rowMajor_val_three, Shape.rowMajor_val_one]
    show (0 * 8192 + i.val) * 1 + 0 = i.val
    omega)

/-- Two 32-bit words of numbers below 8192, the first with the zero word added, are equal exactly when the numbers are. -/
theorem word_eq_iff (i k : Fin 8192) :
    IntOp.addi (BitVec.ofNat 32 i.val) 0#32 = BitVec.ofNat 32 k.val ↔ k = i := by
  have hi := i.isLt
  have hk := k.isLt
  unfold IntOp.addi
  rw [BitVec.add_zero]
  constructor
  · intro h
    have h' := congrArg BitVec.toNat h
    simp only [BitVec.toNat_ofNat] at h'
    exact Fin.ext (by omega)
  · rintro rfl; rfl

/-- The matrix of truth values "row number = column number", at (i, k). -/
theorem diag_cond (i k : Fin 8192) :
    cmpi .eq (addi (iotaInDim S8192x8192 32 0) (broadcastInDim S8192x8192 ![] bcast_S_S8192x8192 (constantI S_ 32 0#32)))
      (iotaInDim S8192x8192 32 1) (ix2 i k) = 1#1 ↔ k = i := by
  show IntOp.cmpi .eq (IntOp.addi (BitVec.ofNat 32 i.val)
      (broadcastInDim S8192x8192 ![] bcast_S_S8192x8192 (constantI S_ 32 0#32) (ix2 i k))) (BitVec.ofNat 32 k.val) = 1#1 ↔ k = i
  rw [broadcastInDim_scalar_apply, StableHlo.Predicate.cmpi_eq_iff]
  exact word_eq_iff i k

/-- The weight vector laid down the rows and repeated along the columns reads, at (i, k), the weight of neuron `i`. -/
theorem diag_col {α : Type} (x : S8192.Idx → α) (i k : Fin 8192) :
    broadcastInDim S8192x8192 ![0, 1] bcast_S8192x1_S8192x8192_0_1
      (broadcastInDim S8192x1 ![0] bcast_S8192_S8192x1_0 x) (ix2 i k) = x (ix1 i) :=
  (StableHlo.Predicate.bcast_rows bcast_S8192_S8192x1_0 bcast_S8192x1_S8192x8192_0_1 x i k).trans
    (congrArg x (funext fun a => match a with | ⟨0, _⟩ => Fin.ext rfl))

/-- The diagonal spread of a weight vector: entry (i, k) is the weight of neuron `i` where `k = i` and zero elsewhere. -/
theorem diagV_apply (w : FVec Ideal S1x8192x1 .f32) (p : Fin 1) (i k : Fin 8192) :
    diagV (F := Ideal) w (ix3 p i k) = if k = i then w (ix3 (0 : Fin 1) i (0 : Fin 1)) else 0 := by
  unfold diagV
  refine (broadcastInDim_apply _ _ _ (ix3 p i k) (ix2 i k) (fun a => ?_)).trans ?_
  · match a with
    | ⟨0, _⟩ => exact (if_neg (show ¬(8192 : ℕ) = 1 by decide)).symm
    | ⟨1, _⟩ => exact (if_neg (show ¬(8192 : ℕ) = 1 by decide)).symm
  rw [select_apply, diag_col, pad_zero_apply, flat_apply, broadcastInDim_scalar_apply, constant_apply, Ideal.ofBits_zero_f32]
  unfold Scalar.select
  exact if_congr (diag_cond i k) rfl rfl

/-! ## The contraction over the column index

The matrix-vector product is the host's `dot_general` contracting the matrix's second axis with the vector's first. At an
output index `(i, s)` and a contraction index `q` the left operand is read at `(i, q)` and the right at `(q, s)`: one
coordinate fact per operand axis. -/

theorem lhs_axis0 (j : S8192x1.Idx) (q : dot_S8192x8192_S8192x1_S8192x1_1_0_0_1_n_n.contr.Idx) :
    (dot_S8192x8192_S8192x1_S8192x1_1_0_0_1_n_n.lhsIdx j q 0).val = (j 0).val := by
  unfold DotDims.lhsIdx
  rw [dif_neg (show ¬(0 : Fin S8192x8192.rank) ∈ dot_S8192x8192_S8192x1_S8192x1_1_0_0_1_n_n.lhsBatch by decide),
    dif_pos (show (0 : Fin S8192x8192.rank) ∈ dot_S8192x8192_S8192x1_S8192x1_1_0_0_1_n_n.lhsNonContracting by decide)]
  rfl

theorem lhs_axis1 (j : S8192x1.Idx) (q : dot_S8192x8192_S8192x1_S8192x1_1_0_0_1_n_n.contr.Idx) :
    (dot_S8192x8192_S8192x1_S8192x1_1_0_0_1_n_n.lhsIdx j q 1).val = (q ⟨0, by decide⟩).val :=
  dot_S8192x8192_S8192x1_S8192x1_1_0_0_1_n_n.lhsIdx_val_of_single rfl j q

theorem rhs_axis0 (j : S8192x1.Idx) (q : dot_S8192x8192_S8192x1_S8192x1_1_0_0_1_n_n.contr.Idx) :
    (dot_S8192x8192_S8192x1_S8192x1_1_0_0_1_n_n.rhsIdx j q 0).val = (q ⟨0, by decide⟩).val :=
  dot_S8192x8192_S8192x1_S8192x1_1_0_0_1_n_n.rhsIdx_val_of_single rfl j q

theorem rhs_axis1 (j : S8192x1.Idx) (q : dot_S8192x8192_S8192x1_S8192x1_1_0_0_1_n_n.contr.Idx) :
    (dot_S8192x8192_S8192x1_S8192x1_1_0_0_1_n_n.rhsIdx j q 1).val = (j 1).val := by
  unfold DotDims.rhsIdx
  rw [dif_neg (show ¬(1 : Fin S8192x1.rank) ∈ dot_S8192x8192_S8192x1_S8192x1_1_0_0_1_n_n.rhsBatch by decide),
    dif_pos (show (1 : Fin S8192x1.rank) ∈ dot_S8192x8192_S8192x1_S8192x1_1_0_0_1_n_n.rhsNonContracting by decide)]
  rfl

/-- On the extended reals the product of an 8192 × 8192 matrix with an 8192 × 1 column is, at `(i, s)`, the sum over the
    column index `k` of `A (i, k) · x (k, s)`. -/
theorem dot_apply (A : FVec Ideal S8192x8192 .f32) (x : FVec Ideal S8192x1 .f32) (i : Fin 8192) (s : Fin 1) :
    Host.dotGeneral (F := Ideal) dot_S8192x8192_S8192x1_S8192x1_1_0_0_1_n_n none A x (ix2 i s)
      = ∑ k : Fin 8192, A (ix2 i k) * x (ix2 k s) := by
  simp only [Host.dotGeneral]
  rw [Ideal.dotGeneral_apply,
    ← Equiv.sum_comp (contrEquiv1 dot_S8192x8192_S8192x1_S8192x1_1_0_0_1_n_n 8192 rfl rfl).symm]
  refine Finset.sum_congr rfl fun k _ => ?_
  have hk := contrEquiv1_symm_val dot_S8192x8192_S8192x1_S8192x1_1_0_0_1_n_n 8192 rfl rfl k
  have el : dot_S8192x8192_S8192x1_S8192x1_1_0_0_1_n_n.lhsIdx (ix2 i s)
      ((contrEquiv1 dot_S8192x8192_S8192x1_S8192x1_1_0_0_1_n_n 8192 rfl rfl).symm k) = ix2 i k :=
    funext fun a => Fin.ext (by
      match a with
      | ⟨0, _⟩ => exact lhs_axis0 _ _
      | ⟨1, _⟩ => exact (lhs_axis1 _ _).trans hk)
  have er : dot_S8192x8192_S8192x1_S8192x1_1_0_0_1_n_n.rhsIdx (ix2 i s)
      ((contrEquiv1 dot_S8192x8192_S8192x1_S8192x1_1_0_0_1_n_n 8192 rfl rfl).symm k) = ix2 k s :=
    funext fun a => Fin.ext (by
      match a with
      | ⟨0, _⟩ => exact (rhs_axis0 _ _).trans hk
      | ⟨1, _⟩ => exact rhs_axis1 _ _)
  rw [el, er]

/-- A matrix times a bound vector, read at neuron `i`: `∑ k, M (i, k) · x k`. -/
theorem mvV_apply (M : FVec Ideal S1x8192x8192 .f32) (x : FVec Ideal S1x8192x1 .f32) (p : Fin 1) (i : Fin 8192)
    (s : Fin 1) :
    mvV (F := Ideal) M x (ix3 p i s)
      = ∑ k : Fin 8192, M (ix3 (0 : Fin 1) i k) * x (ix3 (0 : Fin 1) k (0 : Fin 1)) := by
  unfold mvV
  refine (broadcastInDim_apply _ _ _ (ix3 p i s) (ix2 i (0 : Fin 1)) (fun a => ?_)).trans ?_
  · match a with
    | ⟨0, _⟩ => exact (if_neg (show ¬(8192 : ℕ) = 1 by decide)).symm
    | ⟨1, _⟩ => exact (if_pos rfl).symm
  rw [dot_apply]
  refine Finset.sum_congr rfl fun k _ => ?_
  rw [shapeCast_1ab_ab_apply, shapeCast_1ab_ab_apply]

/-- A matrix whose entry (i, k) is `f` of the diagonal spread of `w`, for `f` fixing zero, times a vector `x`:
    every off-diagonal term is `0 · x k = 0`, so neuron `i` gets `f (w i) · x i`. -/
theorem mv_diag (f : EReal → EReal) (hf : f 0 = 0) (M : FVec Ideal S1x8192x8192 .f32)
    (w x : FVec Ideal S1x8192x1 .f32)
    (hM : ∀ i k : Fin 8192, M (ix3 (0 : Fin 1) i k) = f (if k = i then w (ix3 (0 : Fin 1) i (0 : Fin 1)) else 0))
    (p : Fin 1) (i : Fin 8192) (s : Fin 1) :
    mvV (F := Ideal) M x (ix3 p i s) = f (w (ix3 (0 : Fin 1) i (0 : Fin 1))) * x (ix3 (0 : Fin 1) i (0 : Fin 1)) := by
  rw [mvV_apply, Finset.sum_congr rfl fun k _ => by rw [hM i k]]
  exact sum_diag f hf _ (fun k => x (ix3 (0 : Fin 1) k (0 : Fin 1))) i

/-- The zero matrix reads zero. -/
theorem zeroM_apply (j : S1x8192x8192.Idx) : zeroM (F := Ideal) j = 0 := by
  unfold zeroM
  rw [broadcastInDim_scalar_apply, constant_apply, Ideal.ofBits_zero_f32]

/-- The positive part of a diagonal spread, at (i, k). -/
theorem posPart_apply (w : FVec Ideal S1x8192x1 .f32) (i k : Fin 8192) :
    maximumf (diagV (F := Ideal) w) (zeroM (F := Ideal)) (ix3 (0 : Fin 1) i k)
      = (fun t : EReal => max t 0) (if k = i then w (ix3 (0 : Fin 1) i (0 : Fin 1)) else 0) := by
  rw [maximumf_apply, diagV_apply, zeroM_apply]

/-- The negative part of a diagonal spread, at (i, k). -/
theorem negPart_apply (w : FVec Ideal S1x8192x1 .f32) (i k : Fin 8192) :
    minimumf (diagV (F := Ideal) w) (zeroM (F := Ideal)) (ix3 (0 : Fin 1) i k)
      = (fun t : EReal => min t 0) (if k = i then w (ix3 (0 : Fin 1) i (0 : Fin 1)) else 0) := by
  rw [minimumf_apply, diagV_apply, zeroM_apply]

/-! ## The per-element stages -/

/-- The zero array reads the zero word. -/
theorem zeroV_apply (j : S1x8192x1.Idx) : zeroV (F := Ideal) j = (zeroW : Ideal .f32) := by
  unfold zeroV
  rw [broadcastInDim_scalar_apply]
  rfl

theorem clipV_apply (a : FVec Ideal S1x8192x1 .f32) (j : S1x8192x1.Idx) :
    clipV (F := Ideal) a j = clipK (F := Ideal) (a j) := by
  unfold clipV
  rw [minimumf_apply, maximumf_apply, broadcastInDim_scalar_apply, broadcastInDim_scalar_apply]
  rfl

/-- For a real slope the straight-through spelling is the clip. -/
theorem steV_apply (a : FVec Ideal S1x8192x1 .f32) (j : S1x8192x1.Idx) (ha : ∃ r : ℝ, a j = (r : EReal)) :
    steV (F := Ideal) a j = clipK (F := Ideal) (a j) := by
  obtain ⟨r, hr⟩ := ha
  show FloatOps.addf (a j) (FloatOps.subf (clipV (F := Ideal) a j) (a j)) = _
  rw [clipV_apply, hr]
  exact ste_eq r

theorem slopeV_apply (l u : FVec Ideal S1x8192x1 .f32) (j : S1x8192x1.Idx) :
    slopeV (F := Ideal) l u j = slopeK (F := Ideal) (l j) (u j) :=
  hostDivf_eq _ _

theorem posV_apply (l u : FVec Ideal S1x8192x1 .f32) (j : S1x8192x1.Idx) :
    posV (F := Ideal) l u j = posK (F := Ideal) (l j) (u j) := by
  show FloatOps.uitofp .f32 (IntOp.andi (FloatOps.cmpf .oge (l j) (zeroV (F := Ideal) j))
    (FloatOps.cmpf .oge (u j) (zeroV (F := Ideal) j))) = _
  rw [zeroV_apply]
  exact (indK_eq_uitofp _).symm

theorem crossV_apply (l u : FVec Ideal S1x8192x1 .f32) (j : S1x8192x1.Idx) :
    crossV (F := Ideal) l u j = crossK (F := Ideal) (l j) (u j) := by
  show FloatOps.uitofp .f32 (IntOp.andi (FloatOps.cmpf .olt (l j) (zeroV (F := Ideal) j))
    (FloatOps.cmpf .oge (u j) (zeroV (F := Ideal) j))) = _
  rw [zeroV_apply]
  exact (indK_eq_uitofp _).symm

theorem strictV_apply (l u : FVec Ideal S1x8192x1 .f32) (j : S1x8192x1.Idx) :
    strictV (F := Ideal) l u j = strictK (F := Ideal) (l j) (u j) := by
  show FloatOps.uitofp .f32 (IntOp.andi (FloatOps.cmpf .olt (l j) (zeroV (F := Ideal) j))
    (FloatOps.cmpf .ogt (u j) (zeroV (F := Ideal) j))) = _
  rw [zeroV_apply]
  exact (indK_eq_uitofp _).symm

theorem wLowerV_apply (l u a : FVec Ideal S1x8192x1 .f32) (j : S1x8192x1.Idx) (ha : ∃ r : ℝ, a j = (r : EReal)) :
    wLowerV (F := Ideal) l u a j = wLowerK (F := Ideal) (l j) (u j) (a j) := by
  show FloatOps.addf (posV (F := Ideal) l u j) (FloatOps.mulf (crossV (F := Ideal) l u j) (steV (F := Ideal) a j)) = _
  rw [posV_apply, crossV_apply, steV_apply a j ha]
  rfl

theorem wUpperV_apply (l u : FVec Ideal S1x8192x1 .f32) (j : S1x8192x1.Idx) :
    wUpperV (F := Ideal) l u j = wUpperK (F := Ideal) (l j) (u j) := by
  show FloatOps.addf (posV (F := Ideal) l u j) (FloatOps.mulf (crossV (F := Ideal) l u j) (slopeV (F := Ideal) l u j)) = _
  rw [posV_apply, crossV_apply, slopeV_apply]
  rfl

theorem biasV_apply (l u : FVec Ideal S1x8192x1 .f32) (j : S1x8192x1.Idx) :
    biasV (F := Ideal) l u j = biasK (F := Ideal) (l j) (u j) := by
  show FloatOps.mulf (strictV (F := Ideal) l u j)
    (FloatOps.mulf (FloatOps.hostNegf (slopeV (F := Ideal) l u j)) (l j)) = _
  rw [strictV_apply, slopeV_apply, hostNegf_eq]
  rfl

/-! ## The two results -/

/-- The reference's lower bounds are the per-element lower bound, for real slopes. -/
theorem refLower_eq (l u a : FVec Ideal S1x8192x1 .f32) (ha : ∀ i, ∃ r : ℝ, a i = (r : EReal)) :
    refLower (F := Ideal) l u a = fun i => lowerK (F := Ideal) (l i) (u i) (a i) := by
  funext i
  obtain ⟨p, q, s, rfl⟩ : ∃ (p : Fin 1) (q : Fin 8192) (s : Fin 1), i = ix3 p q s := ⟨i 0, i 1, i 2, eq_ix3 i⟩
  obtain rfl : p = 0 := Subsingleton.elim _ _
  obtain rfl : s = 0 := Subsingleton.elim _ _
  have hmax := mv_diag (fun t => max t 0) (max_self 0) _ (wLowerV (F := Ideal) l u a) l
    (posPart_apply (wLowerV (F := Ideal) l u a)) 0 q 0
  have hmin := mv_diag (fun t => min t 0) (min_self 0) _ (wLowerV (F := Ideal) l u a) u
    (negPart_apply (wLowerV (F := Ideal) l u a)) 0 q 0
  unfold refLower
  rw [addf_apply, addf_apply, hmax, hmin, zeroV_apply, wLowerV_apply l u a _ (ha _), zeroW_eq, add_zero]
  show _ = max (wLowerK (F := Ideal) _ _ _) (zeroW : Ideal .f32) * _ + min (wLowerK (F := Ideal) _ _ _) (zeroW : Ideal .f32) * _
  rw [zeroW_eq]

/-- The reference's upper bounds are the per-element upper bound. -/
theorem refUpper_eq (l u : FVec Ideal S1x8192x1 .f32) :
    refUpper (F := Ideal) l u = fun i => upperK (F := Ideal) (l i) (u i) := by
  funext i
  obtain ⟨p, q, s, rfl⟩ : ∃ (p : Fin 1) (q : Fin 8192) (s : Fin 1), i = ix3 p q s := ⟨i 0, i 1, i 2, eq_ix3 i⟩
  obtain rfl : p = 0 := Subsingleton.elim _ _
  obtain rfl : s = 0 := Subsingleton.elim _ _
  have hmax := mv_diag (fun t => max t 0) (max_self 0) _ (wUpperV (F := Ideal) l u) u
    (posPart_apply (wUpperV (F := Ideal) l u)) 0 q 0
  have hmin := mv_diag (fun t => min t 0) (min_self 0) _ (wUpperV (F := Ideal) l u) l
    (negPart_apply (wUpperV (F := Ideal) l u)) 0 q 0
  unfold refUpper
  rw [addf_apply, addf_apply, hmax, hmin, biasV_apply, wUpperV_apply]
  show _ = (max (wUpperK (F := Ideal) _ _) (zeroW : Ideal .f32) * _ + min (wUpperK (F := Ideal) _ _) (zeroW : Ideal .f32) * _)
    + biasK (F := Ideal) _ _
  rw [zeroW_eq]

end Cert.ReferenceIdeal.Read

end
-- ==== Proof.FiniteInputs.lean ====
import proofs.«129557_j89446988907158_1_alg».proof.Proof.Gen.Pre_finite_inputs
import Idealize.ShloMosaic.Lib.ReduceAll
import Idealize.ShloMosaic.Lib.ValueIdx
import Idealize.ShloMosaic.PureOps.Ideal.Laws

/-!
# The precondition "every float input is finite", read back over the extended reals

The precondition is the conjunction, over the three inputs, of `all (|x| < +∞)`.  Over the
extended reals `|x|` is `max x (-x)`, the pattern `0x7F800000` denotes `⊤`, and the test
`max x (-x) < ⊤` excludes exactly `⊥` and `⊤`: what is left is a real number.
-/

noncomputable section

namespace Cert.ReluBound.Finite

open Idealize.ShloMosaic

/-- The f32 pattern with all exponent bits set and a zero significand denotes `+∞`. -/
theorem ofBits_inf_f32 : Ideal.ofBits .f32 0x7F800000#32 = (⊤ : EReal) := by
  simp [Ideal.ofBits, Ideal.ieee]

/-- An extended real whose absolute value `max x (-x)` lies strictly below `+∞` is a real:
at `⊥` the maximum is `-⊥ = ⊤`, at `⊤` it is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- The scalar shape has exactly one index. -/
instance : Subsingleton Cert.Pre_finite_inputs.S_.Idx := ⟨fun a b => funext fun d => d.elim0⟩

/-- One conjunct `all (|x| < +∞)` of the precondition, read back at every index: the
conjunction over all entries being true makes each entry's test true, and the test at entry
`i` is `max (x i) (-(x i)) < ⊤`. -/
theorem real_of_all (x : FVec Ideal Cert.Pre_finite_inputs.S1x8192x1 .f32)
    (hb : Cert.Pre_finite_inputs.S_.BroadcastsInDim Cert.Pre_finite_inputs.S1x8192x1
      (![] : Fin 0 → Fin Cert.Pre_finite_inputs.S1x8192x1.rank))
    (hr : Cert.Pre_finite_inputs.S1x8192x1.ReducesTo [0, 1, 2] Cert.Pre_finite_inputs.S_)
    (hu : 0 < Cert.Pre_finite_inputs.S_.numel)
    (e : Host.reduce IntOp.andi
          (cmpf CmpFPredicate.olt (Host.absf x)
            (broadcastInDim Cert.Pre_finite_inputs.S1x8192x1 ![] hb
              (constant Cert.Pre_finite_inputs.S_ FTy.f32 0x7F800000#32)))
          (constantI Cert.Pre_finite_inputs.S_ 1 1#1) hr hu ValueIdx.ix0 = 1#1) :
    ∀ i, ∃ r : ℝ, x i = (r : EReal) := by
  intro i
  have hi := Host.reduce_andi_all _ _ hr hu ValueIdx.ix0 e i
  -- at index i the comparison is the order test of |x i| against the value of the +∞ pattern
  have hi' : Ideal.cmp .olt (max (x i) (-(x i))) (Ideal.ofBits .f32 0x7F800000#32) = 1#1 := hi
  rw [ofBits_inf_f32] at hi'
  refine real_of_abs_lt_top (x i) ?_
  by_contra hn
  simp only [Ideal.cmp, decide_eq_false hn] at hi'
  exact absurd hi' (by decide)

/-- Under the precondition every entry of each of the three inputs is a real number. -/
theorem real_of_pre (x0 x1 x2 : FVec Ideal Cert.Pre_finite_inputs.S1x8192x1 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧
      (∀ i, ∃ r : ℝ, x2 i = (r : EReal)) := by
  have h0 := congrFun h ValueIdx.ix0
  dsimp only [Cert.Pre_finite_inputs.fn] at h0
  -- the result is (all₀ ∧ all₁) ∧ all₂
  obtain ⟨h01, e2⟩ := IntOp.andi_eq_one.1 h0
  obtain ⟨e0, e1⟩ := IntOp.andi_eq_one.1 h01
  exact ⟨real_of_all x0 _ _ _ e0, real_of_all x1 _ _ _ e1, real_of_all x2 _ _ _ e2⟩

end Cert.ReluBound.Finite

end
-- ==== Proof.lean ====
/-
  One step of ReLU bound propagation: new lower and upper bounds of 8192 neurons from their old bounds
  `l ≤ u` and a learnt slope `a`, computed element by element by the kernel and through two
  diagonal 8192 × 8192 weight matrices by the reference.

  Per neuron both programs form the diagonal weights `wLower = pos + cross · clip a` and
  `wUpper = pos + cross · u / (u - l)` from the indicators of the sign pattern of `(l, u)`, and the offset
  `bias = strict · (-(u / (u - l)) · l)`. The kernel then takes

      lower = max wLower 0 · l + min wLower 0 · u,        upper = (max wUpper 0 · u + min wUpper 0 · l) + bias

  directly. The reference spreads each weight vector over the diagonal of a matrix `D`, splits `D` into
  `max D 0` and `min D 0`, and multiplies each part with a bound vector. Row `i` of either part is zero off the
  diagonal, and on the extended reals `0 · x = 0` for every `x`, so each matrix-vector product at `i` is its one
  diagonal term: the reference's results are the kernel's. Three spellings differ on the way and agree on the
  extended reals: a truth value converted after widening against converted directly; `0 - x` against `-x`; and the
  clipped slope written `a + (clip a - a)`, which is `clip a` because `a` is a real number — the one place
  where the precondition (every input finite) is used.

  The kernel's result arrays are read off its frame run (the body's two stores are element-wise in the three
  loaded arrays; reshapes before and after the call cancel), the reference's run is its list of host operations
  with the three outlined functions laid in at their calls, and its results are read at an index stage by stage.
-/
import proofs.«129557_j89446988907158_1_alg».proof.Defs
import proofs.«129557_j89446988907158_1_alg».proof.Proof.Gen.Kernel
import proofs.«129557_j89446988907158_1_alg».proof.Proof.Gen.Kernel.Frame
import proofs.«129557_j89446988907158_1_alg».proof.Proof.Gen.KernelIdeal
import proofs.«129557_j89446988907158_1_alg».proof.Proof.Gen.KernelIdeal.Frame
import proofs.«129557_j89446988907158_1_alg».proof.Proof.Gen.ReferenceIdeal
import proofs.«129557_j89446988907158_1_alg».proof.Proof.Gen.Pre_finite_inputs
import proofs.«129557_j89446988907158_1_alg».proof.Proof.KernelArrays
import proofs.«129557_j89446988907158_1_alg».proof.Proof.RefRun
import proofs.«129557_j89446988907158_1_alg».proof.Proof.RefRead
import proofs.«129557_j89446988907158_1_alg».proof.Proof.FiniteInputs
import Idealize.ShloMosaic.Adequacy
import Idealize.ShloMosaic.Init

noncomputable section

open Idealize.ShloMosaic Idealize.ShloMosaic.TcCoe Idealize.SL.Sem

namespace Cert.Proof.Parts

/-- The kernel as printed terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2)
    (Cert.ReferenceIdeal.HandRun.run_stages (F := Ideal) m ρ)

/-- The ideal pass rewrote nothing. -/
theorem preserves : Cert.preserves_Kernel_KernelIdeal := trivial

/-- From memories agreeing on the arguments both programs end with the element-wise bounds `lowerK` and `upperK`
    of the arguments: the kernel by its run, the reference by its run read at every index, the slope being real. -/
theorem algebraic : Cert.algebraic_KernelIdeal_ReferenceIdeal := by
  intro m ρ m' ρ' hpre hagree
  refine ⟨_, _, Cert.KernelIdeal.Arrays.run_named (F := Ideal) m ρ, ?_⟩
  refine (θ_run Cert.ReferenceIdeal.defs _ _).mono (fun _ h c => ?_)
    (Cert.ReferenceIdeal.HandRun.run_stages (F := Ideal) m' ρ')
  obtain ⟨h50, h64, hk⟩ := h c
  obtain ⟨e0, e1, e2⟩ := hagree c
  have hfin := (Cert.ReluBound.Finite.real_of_pre _ _ _ (hpre c)).2.2
  refine ⟨?_, ?_, hk⟩
  · rw [h50, e0, e1, e2]
    exact Cert.ReferenceIdeal.Read.refLower_eq _ _ _ hfin
  · rw [h64, e0, e1]
    exact Cert.ReferenceIdeal.Read.refUpper_eq _ _

end Cert.Proof.Parts

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
